-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : IVec S8192 32) (main_arg1 : FVec F S8192 .f32) (main_arg2 : IVec S8192 32) : IVec S_ 1 :=
  let main_v0 : FVec F S8192 .f32 := Host.absf main_arg1
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  main_v3
-- ==== Kernel.lean ====
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S512x1 : Shape := ⟨2, ![512, 1]⟩
abbrev S1x512 : Shape := ⟨2, ![1, 512]⟩
abbrev S512x512 : Shape := ⟨2, ![512, 512]⟩
abbrev S512 : Shape := ⟨1, ![512]⟩
abbrev S1 : Shape := ⟨1, ![1]⟩
abbrev S_ : Shape := ⟨0, ![]⟩

abbrev nBuf : Space → Nat
  | .hbm => 14
  | .vmem => 14
  | .smem => 0
  | _ => 0

abbrev bufTy : (tb : Table) → Fin (tcTables nBuf tb) → BufTy
  | .hbm, ⟨0, _⟩ => ⟨S8192, .i32⟩
  | .hbm, ⟨1, _⟩ => ⟨S8192, .f32⟩
  | .hbm, ⟨2, _⟩ => ⟨S8192, .i32⟩
  | .hbm, ⟨3, _⟩ => ⟨S8192x1, .f32⟩
  | .hbm, ⟨4, _⟩ => ⟨S1x8192, .f32⟩
  | .hbm, ⟨5, _⟩ => ⟨S8192x1, .i32⟩
  | .hbm, ⟨6, _⟩ => ⟨S1x8192, .i32⟩
  | .hbm, ⟨7, _⟩ => ⟨S8192x1, .i32⟩
  | .hbm, ⟨8, _⟩ => ⟨S1x8192, .i32⟩
  | .hbm, ⟨9, _⟩ => ⟨S1x1, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S512x1, .f32⟩
  | .local _ .vmem, ⟨1, _⟩ => ⟨S512x1, .f32⟩
  | .local _ .vmem, ⟨2, _⟩ => ⟨S1x512, .f32⟩
  | .local _ .vmem, ⟨3, _⟩ => ⟨S1x512, .f32⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S512x1, .i32⟩
  | .local _ .vmem, ⟨9, _⟩ => ⟨S512x1, .i32⟩
  | .local _ .vmem, ⟨10, _⟩ => ⟨S1x512, .i32⟩
  | .local _ .vmem, ⟨11, _⟩ => ⟨S1x512, .i32⟩
  | .local _ .vmem, ⟨12, _⟩ => ⟨S1x1, .f32⟩
  | .local _ .vmem, ⟨13, _⟩ => ⟨S1x1, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond2 (i : grid0.Coords) : BitVec 1 :=
  let arg0 : BitVec 32 := BitVec.ofNat 32 (i 0).val
  let arg1 : BitVec 32 := BitVec.ofNat 32 (i 1).val
  let v5 : BitVec 1 := Scalar.cmpi .sle arg0 arg1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

class Facts₀ : Prop where
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  iota_S512x1_d0_w32 : S512x1.Iotas .tc 32 [0]
  iota_S1x512_d1_w32 : S1x512.Iotas .tc 32 [1]
  natLt_1_32 : 1 < 32
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S8192x1.size a
  hwx0_0 : ∀ i : grid0.Coords, EltTy.bits .f32 = 32 ∨ (Rect.block (s := S8192x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x8192.size a
  hwx0_1 : ∀ i : grid0.Coords, EltTy.bits .f32 = 32 ∨ (Rect.block (s := S1x8192) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .i32 = 32 ∨ (Rect.block (s := S8192x1) S512x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .i32 = 32 ∨ (Rect.block (s := S1x8192) S1x512.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)

variable [Facts₀]

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S1x1.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S1x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond1 i == 1#1) && !(k0_cond2 i == 1#1) | 7 => fun i => !(k0_cond1 i == 1#1) && !(k0_cond2 i == 1#1) | ⟨_ + 8, h⟩ => absurd h (Nat.not_lt.2 (Nat.le_add_left _ _))

class Facts : Prop extends Facts₀ where

variable [Facts]
-- ==== ReferenceIdeal.lean ====
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192, .i32⟩
  | .hbm, ⟨1, _⟩ => ⟨S8192, .f32⟩
  | .hbm, ⟨2, _⟩ => ⟨S8192, .i32⟩
  | .hbm, ⟨3, _⟩ => ⟨S8192, .i32⟩
  | .hbm, ⟨4, _⟩ => ⟨S8192x1, .i32⟩
  | .hbm, ⟨5, _⟩ => ⟨S1x8192, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S8192x1, .i32⟩
  | .hbm, ⟨10, _⟩ => ⟨S1x8192, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S8192x1, .i32⟩
  | .hbm, ⟨15, _⟩ => ⟨S1x8192, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S8192x8192, .i1⟩
  | .hbm, ⟨20, _⟩ => ⟨S8192x8192, .i1⟩
  | .hbm, ⟨21, _⟩ => ⟨S8192x1, .f32⟩
  | .hbm, ⟨22, _⟩ => ⟨S1x8192, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x1, .i32⟩
  | .hbm, ⟨27, _⟩ => ⟨S_, .i32⟩
  | .hbm, ⟨28, _⟩ => ⟨S8192x1, .i32⟩
  | .hbm, ⟨29, _⟩ => ⟨S8192x1, .i1⟩
  | .hbm, ⟨30, _⟩ => ⟨S8192x1, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S_, .f32⟩
  | .hbm, ⟨51, _⟩ => ⟨S_, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_c : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_0 : Ref sig .tc := ⟨.hbm, 43, rfl⟩
abbrev main_v38 : Ref sig .tc := ⟨.hbm, 44, rfl⟩
abbrev main_cst_1 : Ref sig .tc := ⟨.hbm, 45, rfl⟩
abbrev main_call0_v0 : Ref sig .tc := ⟨.hbm, 46, rfl⟩
abbrev main_call0_v1 : Ref sig .tc := ⟨.hbm, 47, rfl⟩
abbrev main_v39 : Ref sig .tc := ⟨.hbm, 48, rfl⟩
abbrev main_cst_2 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x1 : S_.BroadcastsInDim S8192x1 (![] : Fin 0 → Fin S8192x1.rank)
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts₀]

class Facts : Prop extends Facts₀ where

variable [Facts]
-- ==== Proof.KB.Conds.lean ====
/-
  Where the body's two branches are taken over the 16 x 16 grid, point by point.

  A point `t` of the row-major order has coordinates `(t / 16, t % 16)`. The reset branch (both coordinates
  zero) is taken at the first point only; the accumulating branch (row coordinate at most the column
  coordinate) at the points on or above the diagonal, the first among them. So every point is of one of three
  kinds: the first point (reset, then accumulate), a later point on or above the diagonal (accumulate), a
  point below the diagonal (nothing stored). The two result windows hold one block throughout, are written
  back at the last point only, and are idle exactly at the points below the diagonal.
-/
import proofs.«112286_j20495583936604_1_alg».proof.Proof.Gen.Kernel.Frame
import proofs.«112286_j20495583936604_1_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset branch's condition at grid coordinates `i`. -/
abbrev cond1 (i : grid0.Coords) : Prop := k0_cond1 i = 1#1
/-- The accumulating branch's condition at grid coordinates `i`. -/
abbrev cond2 (i : grid0.Coords) : Prop := k0_cond2 i = 1#1

/-- The reset branch is taken at the first point only. -/
theorem hcond1 : ∀ t : Fin cfg0.N, cond1 (grid0.coords t) ↔ t.val = 0 :=
  (by decide +kernel : ∀ t : Fin grid0.N, cond1 (grid0.coords t) ↔ t.val = 0)
/-- The accumulating branch is taken on and above the diagonal. -/
theorem hcond2 : ∀ t : Fin cfg0.N, cond2 (grid0.coords t) ↔ t.val / 16 ≤ t.val % 16 :=
  (by decide +kernel : ∀ t : Fin grid0.N, cond2 (grid0.coords t) ↔ t.val / 16 ≤ t.val % 16)
/-- A point's row coordinate. -/
theorem coord0 : ∀ t : Fin cfg0.N, ((grid0.coords t) 0).val = t.val / 16 :=
  (by decide +kernel : ∀ t : Fin grid0.N, ((grid0.coords t) 0).val = t.val / 16)
/-- A point's column coordinate. -/
theorem coord1 : ∀ t : Fin cfg0.N, ((grid0.coords t) 1).val = t.val % 16 :=
  (by decide +kernel : ∀ t : Fin grid0.N, ((grid0.coords t) 1).val = t.val % 16)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
/-- On or above the diagonal the body stores into both result windows. -/
theorem liveAt6 : ∀ t : Fin cfg0.N, t.val / 16 ≤ t.val % 16 → cfg0.idle 6 (grid0.coords t) = false := by decide +kernel
theorem liveAt7 : ∀ t : Fin cfg0.N, t.val / 16 ≤ t.val % 16 → cfg0.idle 7 (grid0.coords t) = false := by decide +kernel
/-- Below the diagonal it stores nothing into them, -/
theorem idleAt6 : ∀ t : Fin cfg0.N, ¬t.val / 16 ≤ t.val % 16 → cfg0.idle 6 (grid0.coords t) = true := by decide +kernel
theorem idleAt7 : ∀ t : Fin cfg0.N, ¬t.val / 16 ≤ t.val % 16 → cfg0.idle 7 (grid0.coords t) = true := by decide +kernel
/-- and they are not written back there (only the last point writes back, and it lies on the diagonal). -/
theorem noFlush6 : ∀ t : Fin cfg0.N, ¬t.val / 16 ≤ t.val % 16 → (cfg0.win 6).flush t = false := by decide +kernel
theorem noFlush7 : ∀ t : Fin cfg0.N, ¬t.val / 16 ≤ t.val % 16 → (cfg0.win 7).flush t = false := by decide +kernel

/-! ## The staging memrefs the body is called with -/

abbrev ms0 (t : Fin cfg0.N) : Memref sig .tc .vmem S512x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1 .f32 := win0_7.stage (cfg0.slots t 7)
abbrev hs7 (t : Fin cfg0.N) : (ms7 t).IsWhole := hstage0_7 ((cfg0.slots t 7).cast nbuf0_7)

/-- One staging buffer of each result window, through which its contents are stated. -/
abbrev VO6 : View sig .tc .vmem S1x1 .f32 := (Memref.whole cc0_stg6_0 : Memref sig .tc .vmem S1x1 .f32).view
abbrev VO7 : View sig .tc .vmem S1x1 .f32 := (Memref.whole cc0_stg7_0 : Memref sig .tc .vmem S1x1 .f32).view

end Cert.Kernel.Body

end
-- ==== Proof.KB.RunA.lean ====
/-
  The body at the first point: the reset branch zeroes the two accumulator buffers, whatever they held, and the accumulating branch then adds the first block's sums.
-/
import proofs.«112286_j20495583936604_1_alg».proof.Proof.KB.Conds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- The body's run in this case on whole staging memrefs: the six input buffers at their contents and handed back
    unchanged; the two accumulator buffers end with the listed stores written (last first). The lists are the
    witness the symbolic run finds. -/
noncomputable def kernelRunA (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (hc1 : cond1 i) (hc2 : cond2 i)
    (x0 : Vec F S512x1 .f32) (x1 : Vec F S1x512 .f32) (x2 : Vec F S512x1 .i32) (x3 : Vec F S1x512 .i32) (x4 : Vec F S512x1 .i32) (x5 : Vec F S1x512 .i32) :
    Σ' (L6 : List (View.Piece (Elt F) S1x1 .f32)), { L7 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0__pairwise_bce_kernel i arg2 harg2 arg3 harg3 arg4 harg4 arg5 harg5 arg6 harg6 arg7 harg7 arg8 harg8 arg9 harg9) K } := by
  refine ⟨?_, ?_, fun E K => ?run⟩
  case run =>
    simp only [cc0__pairwise_bce_kernel_eq_skeleton]; unfold cc0__pairwise_bce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

end Cert.Kernel.Body

end
-- ==== Proof.KB.RunB.lean ====
/-
  The body at a later point on or above the diagonal: the reset branch is skipped, the accumulating branch adds the point's block sums to what the two accumulator buffers held.
-/
import proofs.«112286_j20495583936604_1_alg».proof.Proof.KB.Conds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- The body's run in this case on whole staging memrefs: the six input buffers at their contents and handed back
    unchanged; the two accumulator buffers end with the listed stores written (last first). The lists are the
    witness the symbolic run finds. -/
noncomputable def kernelRunB (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (hc1 : ¬cond1 i) (hc2 : cond2 i)
    (x0 : Vec F S512x1 .f32) (x1 : Vec F S1x512 .f32) (x2 : Vec F S512x1 .i32) (x3 : Vec F S1x512 .i32) (x4 : Vec F S512x1 .i32) (x5 : Vec F S1x512 .i32) (xo6 xo7 : Vec F S1x1 .f32) :
    Σ' (L6 : List (View.Piece (Elt F) S1x1 .f32)), { L7 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0__pairwise_bce_kernel i arg2 harg2 arg3 harg3 arg4 harg4 arg5 harg5 arg6 harg6 arg7 harg7 arg8 harg8 arg9 harg9) K } := by
  refine ⟨?_, ?_, fun E K => ?run⟩
  case run =>
    simp only [cc0__pairwise_bce_kernel_eq_skeleton]; unfold cc0__pairwise_bce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

end Cert.Kernel.Body

end
-- ==== Proof.KB.Outs.lean ====
/-
  What the two accumulator buffers hold after the body, case by case and point by point.

  In the two storing cases the last store into each accumulator buffer covers its one element, so the buffer's
  contents after the body are the stored pieces read back. Point by point: after the first point the first
  case's contents; after a later point on or above the diagonal the accumulating case's contents over what
  the point before left; after a point below the diagonal what the point before left, unchanged.
-/
import proofs.«112286_j20495583936604_1_alg».proof.Proof.KB.RunA
import proofs.«112286_j20495583936604_1_alg».proof.Proof.KB.RunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The first point lies on the diagonal. -/
theorem zero_live : (0 : ℕ) / 16 ≤ 0 % 16 := by decide

/-! ## The stored pieces cover the one-element buffers -/

theorem coverA6 (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (hc1 : cond1 i) (hc2 : cond2 i)
    (x0 : Vec F S512x1 .f32) (x1 : Vec F S1x512 .f32) (x2 : Vec F S512x1 .i32) (x3 : Vec F S1x512 .i32) (x4 : Vec F S512x1 .i32) (x5 : Vec F S1x512 .i32) (y : S1x1.Idx) :
    ∃ pc ∈ (kernelRunA c i arg2 harg2 arg3 harg3 arg4 harg4 arg5 harg5 arg6 harg6 arg7 harg7 arg8 harg8 arg9 harg9 hc1 hc2 x0 x1 x2 x3 x4 x5).1, y ∈ pc.1.set :=
  View.cover_of_tiledL (kernelRunA c i arg2 harg2 arg3 harg3 arg4 harg4 arg5 harg5 arg6 harg6 arg7 harg7 arg8 harg8 arg9 harg9 hc1 hc2 x0 x1 x2 x3 x4 x5).1 S1x1.size (by sl_kernel_rfl) y

theorem coverA7 (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (hc1 : cond1 i) (hc2 : cond2 i)
    (x0 : Vec F S512x1 .f32) (x1 : Vec F S1x512 .f32) (x2 : Vec F S512x1 .i32) (x3 : Vec F S1x512 .i32) (x4 : Vec F S512x1 .i32) (x5 : Vec F S1x512 .i32) (y : S1x1.Idx) :
    ∃ pc ∈ (kernelRunA c i arg2 harg2 arg3 harg3 arg4 harg4 arg5 harg5 arg6 harg6 arg7 harg7 arg8 harg8 arg9 harg9 hc1 hc2 x0 x1 x2 x3 x4 x5).2.1, y ∈ pc.1.set :=
  View.cover_of_tiledL (kernelRunA c i arg2 harg2 arg3 harg3 arg4 harg4 arg5 harg5 arg6 harg6 arg7 harg7 arg8 harg8 arg9 harg9 hc1 hc2 x0 x1 x2 x3 x4 x5).2.1 S1x1.size (by sl_kernel_rfl) y

theorem coverB6 (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (hc1 : ¬cond1 i) (hc2 : cond2 i)
    (x0 : Vec F S512x1 .f32) (x1 : Vec F S1x512 .f32) (x2 : Vec F S512x1 .i32) (x3 : Vec F S1x512 .i32) (x4 : Vec F S512x1 .i32) (x5 : Vec F S1x512 .i32) (xo6 xo7 : Vec F S1x1 .f32) (y : S1x1.Idx) :
    ∃ pc ∈ (kernelRunB c i arg2 harg2 arg3 harg3 arg4 harg4 arg5 harg5 arg6 harg6 arg7 harg7 arg8 harg8 arg9 harg9 hc1 hc2 x0 x1 x2 x3 x4 x5 xo6 xo7).1, y ∈ pc.1.set :=
  View.cover_of_tiledL (kernelRunB c i arg2 harg2 arg3 harg3 arg4 harg4 arg5 harg5 arg6 harg6 arg7 harg7 arg8 harg8 arg9 harg9 hc1 hc2 x0 x1 x2 x3 x4 x5 xo6 xo7).1 S1x1.size (by sl_kernel_rfl) y

theorem coverB7 (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (hc1 : ¬cond1 i) (hc2 : cond2 i)
    (x0 : Vec F S512x1 .f32) (x1 : Vec F S1x512 .f32) (x2 : Vec F S512x1 .i32) (x3 : Vec F S1x512 .i32) (x4 : Vec F S512x1 .i32) (x5 : Vec F S1x512 .i32) (xo6 xo7 : Vec F S1x1 .f32) (y : S1x1.Idx) :
    ∃ pc ∈ (kernelRunB c i arg2 harg2 arg3 harg3 arg4 harg4 arg5 harg5 arg6 harg6 arg7 harg7 arg8 harg8 arg9 harg9 hc1 hc2 x0 x1 x2 x3 x4 x5 xo6 xo7).2.1, y ∈ pc.1.set :=
  View.cover_of_tiledL (kernelRunB c i arg2 harg2 arg3 harg3 arg4 harg4 arg5 harg5 arg6 harg6 arg7 harg7 arg8 harg8 arg9 harg9 hc1 hc2 x0 x1 x2 x3 x4 x5 xo6 xo7).2.1 S1x1.size (by sl_kernel_rfl) y

/-! ## What each storing case leaves in the accumulator buffers -/

/-- The loss accumulator after the first point's body. -/
def outA6 (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (hc1 : cond1 i) (hc2 : cond2 i)
    (x0 : Vec F S512x1 .f32) (x1 : Vec F S1x512 .f32) (x2 : Vec F S512x1 .i32) (x3 : Vec F S1x512 .i32) (x4 : Vec F S512x1 .i32) (x5 : Vec F S1x512 .i32) : Vec F S1x1 .f32 :=
  VO6.read (Elt F) (VO6.writes (Elt F) VO6.junk (kernelRunA c i arg2 harg2 arg3 harg3 arg4 harg4 arg5 harg5 arg6 harg6 arg7 harg7 arg8 harg8 arg9 harg9 hc1 hc2 x0 x1 x2 x3 x4 x5).1)
/-- The count accumulator after the first point's body. -/
def outA7 (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (hc1 : cond1 i) (hc2 : cond2 i)
    (x0 : Vec F S512x1 .f32) (x1 : Vec F S1x512 .f32) (x2 : Vec F S512x1 .i32) (x3 : Vec F S1x512 .i32) (x4 : Vec F S512x1 .i32) (x5 : Vec F S1x512 .i32) : Vec F S1x1 .f32 :=
  VO7.read (Elt F) (VO7.writes (Elt F) VO7.junk (kernelRunA c i arg2 harg2 arg3 harg3 arg4 harg4 arg5 harg5 arg6 harg6 arg7 harg7 arg8 harg8 arg9 harg9 hc1 hc2 x0 x1 x2 x3 x4 x5).2.1)
/-- The loss accumulator after an accumulating point's body, over the contents `xo6`, `xo7` found. -/
def outB6 (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (hc1 : ¬cond1 i) (hc2 : cond2 i)
    (x0 : Vec F S512x1 .f32) (x1 : Vec F S1x512 .f32) (x2 : Vec F S512x1 .i32) (x3 : Vec F S1x512 .i32) (x4 : Vec F S512x1 .i32) (x5 : Vec F S1x512 .i32) (xo6 xo7 : Vec F S1x1 .f32) : Vec F S1x1 .f32 :=
  VO6.read (Elt F) (VO6.writes (Elt F) VO6.junk (kernelRunB c i arg2 harg2 arg3 harg3 arg4 harg4 arg5 harg5 arg6 harg6 arg7 harg7 arg8 harg8 arg9 harg9 hc1 hc2 x0 x1 x2 x3 x4 x5 xo6 xo7).1)
/-- The count accumulator after an accumulating point's body. -/
def outB7 (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (hc1 : ¬cond1 i) (hc2 : cond2 i)
    (x0 : Vec F S512x1 .f32) (x1 : Vec F S1x512 .f32) (x2 : Vec F S512x1 .i32) (x3 : Vec F S1x512 .i32) (x4 : Vec F S512x1 .i32) (x5 : Vec F S1x512 .i32) (xo6 xo7 : Vec F S1x1 .f32) : Vec F S1x1 .f32 :=
  VO7.read (Elt F) (VO7.writes (Elt F) VO7.junk (kernelRunB c i arg2 harg2 arg3 harg3 arg4 harg4 arg5 harg5 arg6 harg6 arg7 harg7 arg8 harg8 arg9 harg9 hc1 hc2 x0 x1 x2 x3 x4 x5 xo6 xo7).2.1)

/-! ## Point by point -/

/-- The two accumulator buffers (loss, count) after the body at position `n` of the row-major order. -/
def outsAt (c : Dev nD) : (n : ℕ) → n < cfg0.N → Vec F S1x1 .f32 × Vec F S1x1 .f32
  | 0, hn =>
    (outA6 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) ((hcond1 ⟨0, hn⟩).mpr rfl) ((hcond2 ⟨0, hn⟩).mpr zero_live) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩),
     outA7 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) ((hcond1 ⟨0, hn⟩).mpr rfl) ((hcond2 ⟨0, hn⟩).mpr zero_live) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h2 : (n + 1) / 16 ≤ (n + 1) % 16 then
      (outB6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (fun h => Nat.succ_ne_zero n ((hcond1 ⟨n + 1, hn⟩).mp h)) ((hcond2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).1 (outsAt c n (Nat.lt_of_succ_lt hn)).2,
       outB7 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (fun h => Nat.succ_ne_zero n ((hcond1 ⟨n + 1, hn⟩).mp h)) ((hcond2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).1 (outsAt c n (Nat.lt_of_succ_lt hn)).2)
    else outsAt c n (Nat.lt_of_succ_lt hn)

/-- At the first point: the first case's contents. -/
theorem outsAt_A (c : Dev nD) (t : Fin cfg0.N) (h0 : t.val = 0) :
    outsAt m c t.val t.isLt =
      (outA6 c (grid0.coords t) (ms0 t) (hs0 t) (ms1 t) (hs1 t) (ms2 t) (hs2 t) (ms3 t) (hs3 t) (ms4 t) (hs4 t) (ms5 t) (hs5 t) (ms6 t) (hs6 t) (ms7 t) (hs7 t) ((hcond1 t).mpr h0) ((hcond2 t).mpr (by rw [h0])) (iblk m c 0 t) (iblk m c 1 t) (iblk m c 2 t) (iblk m c 3 t) (iblk m c 4 t) (iblk m c 5 t),
       outA7 c (grid0.coords t) (ms0 t) (hs0 t) (ms1 t) (hs1 t) (ms2 t) (hs2 t) (ms3 t) (hs3 t) (ms4 t) (hs4 t) (ms5 t) (hs5 t) (ms6 t) (hs6 t) (ms7 t) (hs7 t) ((hcond1 t).mpr h0) ((hcond2 t).mpr (by rw [h0])) (iblk m c 0 t) (iblk m c 1 t) (iblk m c 2 t) (iblk m c 3 t) (iblk m c 4 t) (iblk m c 5 t)) := by
  obtain ⟨n, hn⟩ := t
  cases n with
  | zero => rfl
  | succ n => exact absurd h0 (Nat.succ_ne_zero n)

/-- At a later point on or above the diagonal: the accumulating case's contents over what the point before left. -/
theorem outsAt_B (c : Dev nD) (t : Fin cfg0.N) (h0 : t.val ≠ 0) (h2 : t.val / 16 ≤ t.val % 16) :
    outsAt m c t.val t.isLt =
      (outB6 c (grid0.coords t) (ms0 t) (hs0 t) (ms1 t) (hs1 t) (ms2 t) (hs2 t) (ms3 t) (hs3 t) (ms4 t) (hs4 t) (ms5 t) (hs5 t) (ms6 t) (hs6 t) (ms7 t) (hs7 t) (fun h => h0 ((hcond1 t).mp h)) ((hcond2 t).mpr h2) (iblk m c 0 t) (iblk m c 1 t) (iblk m c 2 t) (iblk m c 3 t) (iblk m c 4 t) (iblk m c 5 t) (outsAt m c (t.val - 1) (Nat.lt_of_le_of_lt (Nat.sub_le _ _) t.isLt)).1 (outsAt m c (t.val - 1) (Nat.lt_of_le_of_lt (Nat.sub_le _ _) t.isLt)).2,
       outB7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (fun h => h0 ((hcond1 t).mp h)) ((hcond2 t).mpr h2) (iblk m c 0 t) (iblk m c 1 t) (iblk m c 2 t) (iblk m c 3 t) (iblk m c 4 t) (iblk m c 5 t) (outsAt m c (t.val - 1) (Nat.lt_of_le_of_lt (Nat.sub_le _ _) t.isLt)).1 (outsAt m c (t.val - 1) (Nat.lt_of_le_of_lt (Nat.sub_le _ _) t.isLt)).2) := by
  obtain ⟨n, hn⟩ := t
  cases n with
  | zero => exact absurd rfl h0
  | succ n => exact (dif_pos h2).trans rfl

/-- At a point below the diagonal: what the point before left. -/
theorem outsAt_C (c : Dev nD) (t : Fin cfg0.N) (h2 : ¬t.val / 16 ≤ t.val % 16) :
    outsAt m c t.val t.isLt = outsAt m c (t.val - 1) (Nat.lt_of_le_of_lt (Nat.sub_le _ _) t.isLt) := by
  obtain ⟨n, hn⟩ := t
  cases n with
  | zero => exact absurd zero_live h2
  | succ n => exact (dif_neg h2).trans rfl

end Cert.Kernel.Body

end
-- ==== Proof.KB.RunC.lean ====
/-
  The body at a point below the diagonal: neither branch is taken, nothing is loaded or stored, every buffer is handed back as it was found.
-/
import proofs.«112286_j20495583936604_1_alg».proof.Proof.KB.Conds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- Neither branch taken: the body returns at once, all eight buffers untouched. -/
theorem kernelRunC (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (hc1 : ¬cond1 i) (hc2 : ¬cond2 i)
    (x0 : Vec F S512x1 .f32) (x1 : Vec F S1x512 .f32) (x2 : Vec F S512x1 .i32) (x3 : Vec F S1x512 .i32) (x4 : Vec F S512x1 .i32) (x5 : Vec F S1x512 .i32) (xo6 xo7 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xo7
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xo7) -∗ K ⟨⟩))
      ⊢ wp frame (wpE (defs₀ (F := F)) Variants.none c none) E (cc0__pairwise_bce_kernel i arg2 harg2 arg3 harg3 arg4 harg4 arg5 harg5 arg6 harg6 arg7 harg7 arg8 harg8 arg9 harg9) K := by
  simp only [cc0__pairwise_bce_kernel_eq_skeleton]; unfold cc0__pairwise_bce_kernel_skel
  iintro ⟨H0, H1, H2, H3, H4, H5, H6, H7, Hk⟩
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Kernel.Body

end
-- ==== Proof.KB.Body.lean ====
/-
  The frame of the program: the pipeline's proof data, the body at a generic grid point, the run.

  Proof data: the arrays as the region finds them; each input window's buffer holds its block at every point;
  the two accumulator windows' buffers hold, after each point, what the recursion over the points says. Both
  accumulator windows keep one block for the whole grid and are written back after the last point only, so
  between points their buffers are untouched: a point finds in them what the last storing point left, however
  many points below the diagonal (which store nothing) lie between. The body at a point is the run of the
  point's case: the first point, a later point on or above the diagonal, a point below it.
-/
import proofs.«112286_j20495583936604_1_alg».proof.Proof.KB.Outs
import proofs.«112286_j20495583936604_1_alg».proof.Proof.KB.RunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
    | ⟨7, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]

/-- Each input window's current buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

theorem leaves0 (c : Dev nD) (t : Fin cfg0.N) :
    (dats m 0 c).leavesExact 0 t = owns (c : Thread nD τ) (ms0 t) fullShare (iblk m c 0 t) := by
  unfold Dat.leavesExact; rw [liveAt0 t, after0]
theorem leaves1 (c : Dev nD) (t : Fin cfg0.N) :
    (dats m 0 c).leavesExact 1 t = owns (c : Thread nD τ) (ms1 t) fullShare (iblk m c 1 t) := by
  unfold Dat.leavesExact; rw [liveAt1 t, after1]
theorem leaves2 (c : Dev nD) (t : Fin cfg0.N) :
    (dats m 0 c).leavesExact 2 t = owns (c : Thread nD τ) (ms2 t) fullShare (iblk m c 2 t) := by
  unfold Dat.leavesExact; rw [liveAt2 t, after2]
theorem leaves3 (c : Dev nD) (t : Fin cfg0.N) :
    (dats m 0 c).leavesExact 3 t = owns (c : Thread nD τ) (ms3 t) fullShare (iblk m c 3 t) := by
  unfold Dat.leavesExact; rw [liveAt3 t, after3]
theorem leaves4 (c : Dev nD) (t : Fin cfg0.N) :
    (dats m 0 c).leavesExact 4 t = owns (c : Thread nD τ) (ms4 t) fullShare (iblk m c 4 t) := by
  unfold Dat.leavesExact; rw [liveAt4 t, after4]
theorem leaves5 (c : Dev nD) (t : Fin cfg0.N) :
    (dats m 0 c).leavesExact 5 t = owns (c : Thread nD τ) (ms5 t) fullShare (iblk m c 5 t) := by
  unfold Dat.leavesExact; rw [liveAt5 t, after5]

/-- After a point the next point finds accumulator window 6's buffer as the body left it: no write-back lies between. -/
theorem before6_step (c : Dev nD) (n : ℕ) (hn : n + 1 < cfg0.N) (d) :
    (dats m 0 c).before 6 ⟨n + 1, hn⟩ d = (dats m 0 c).left 6 ⟨n, Nat.lt_of_succ_lt hn⟩ d := by
  have hN : n + 1 < 256 := lt_of_lt_of_eq hn N_0
  rw [Dat.before_of_pos _ 6 ⟨n + 1, hn⟩ (Nat.succ_ne_zero n) ((cfg0.win 6).fetch_out rfl _)]
  rw [if_neg (fun h => by have := (flush0_6 _).mp h; dsimp only at this; omega)]
  rfl

/-- On or above the diagonal the body leaves its stated contents, -/
theorem left6_live (c : Dev nD) (t : Fin cfg0.N) (h2 : t.val / 16 ≤ t.val % 16) (d) :
    (dats m 0 c).left 6 t d = (outsAt m c t.val t.isLt).1 := by
  unfold Dat.left; rw [liveAt6 t h2]; dsimp only
  unfold Dat.kept
  rw [Pipeline.fill_of_clip_none 6 _ (fun _ => rfl) d ((dats m 0 c).after 6 t), Window.fill_cut]
  dsimp only [dats]

/-- below it what it found. -/
theorem left6_idle (c : Dev nD) (t : Fin cfg0.N) (h2 : ¬t.val / 16 ≤ t.val % 16) (d) :
    (dats m 0 c).left 6 t d = (dats m 0 c).before 6 t d := by
  unfold Dat.left; rw [idleAt6 t h2]

/-- So at every point after the first, accumulator window 6's buffer holds what the recursion over the points
    says the point before left — through a run of points below the diagonal, what the last storing point left. -/
theorem before6_succ (c : Dev nD) (n : ℕ) (hn : n + 1 < cfg0.N) (d) :
    (dats m 0 c).before 6 ⟨n + 1, hn⟩ d = (outsAt m c n (Nat.lt_of_succ_lt hn)).1 := by
  induction n with
  | zero =>
    rw [before6_step m c 0 hn d]
    exact left6_live m c ⟨0, Nat.lt_of_succ_lt hn⟩ zero_live d
  | succ k ih =>
    rw [before6_step m c (k + 1) hn d]
    by_cases h2 : (k + 1) / 16 ≤ (k + 1) % 16
    · exact left6_live m c ⟨k + 1, Nat.lt_of_succ_lt hn⟩ h2 d
    · rw [left6_idle m c ⟨k + 1, Nat.lt_of_succ_lt hn⟩ h2 d, ih (Nat.lt_of_succ_lt hn)]
      exact (congrArg Prod.fst (outsAt_C m c ⟨k + 1, Nat.lt_of_succ_lt hn⟩ h2)).symm

theorem before6_pos (c : Dev nD) (t : Fin cfg0.N) (h0 : t.val ≠ 0) (d) :
    (dats m 0 c).before 6 t d = (outsAt m c (t.val - 1) (Nat.lt_of_le_of_lt (Nat.sub_le _ _) t.isLt)).1 := by
  obtain ⟨n, hn⟩ := t
  cases n with
  | zero => exact absurd rfl h0
  | succ k => exact before6_succ m c k hn d

theorem leaves6_live (c : Dev nD) (t : Fin cfg0.N) (h2 : t.val / 16 ≤ t.val % 16) :
    (dats m 0 c).leavesExact 6 t = owns (c : Thread nD τ) (ms6 t) fullShare (outsAt m c t.val t.isLt).1 := by
  unfold Dat.leavesExact; rw [liveAt6 t h2]; dsimp only [dats]

/-- After a point the next point finds accumulator window 7's buffer as the body left it: no write-back lies between. -/
theorem before7_step (c : Dev nD) (n : ℕ) (hn : n + 1 < cfg0.N) (d) :
    (dats m 0 c).before 7 ⟨n + 1, hn⟩ d = (dats m 0 c).left 7 ⟨n, Nat.lt_of_succ_lt hn⟩ d := by
  have hN : n + 1 < 256 := lt_of_lt_of_eq hn N_0
  rw [Dat.before_of_pos _ 7 ⟨n + 1, hn⟩ (Nat.succ_ne_zero n) ((cfg0.win 7).fetch_out rfl _)]
  rw [if_neg (fun h => by have := (flush0_7 _).mp h; dsimp only at this; omega)]
  rfl

/-- On or above the diagonal the body leaves its stated contents, -/
theorem left7_live (c : Dev nD) (t : Fin cfg0.N) (h2 : t.val / 16 ≤ t.val % 16) (d) :
    (dats m 0 c).left 7 t d = (outsAt m c t.val t.isLt).2 := by
  unfold Dat.left; rw [liveAt7 t h2]; dsimp only
  unfold Dat.kept
  rw [Pipeline.fill_of_clip_none 7 _ (fun _ => rfl) d ((dats m 0 c).after 7 t), Window.fill_cut]
  dsimp only [dats]

/-- below it what it found. -/
theorem left7_idle (c : Dev nD) (t : Fin cfg0.N) (h2 : ¬t.val / 16 ≤ t.val % 16) (d) :
    (dats m 0 c).left 7 t d = (dats m 0 c).before 7 t d := by
  unfold Dat.left; rw [idleAt7 t h2]

/-- So at every point after the first, accumulator window 7's buffer holds what the recursion over the points
    says the point before left — through a run of points below the diagonal, what the last storing point left. -/
theorem before7_succ (c : Dev nD) (n : ℕ) (hn : n + 1 < cfg0.N) (d) :
    (dats m 0 c).before 7 ⟨n + 1, hn⟩ d = (outsAt m c n (Nat.lt_of_succ_lt hn)).2 := by
  induction n with
  | zero =>
    rw [before7_step m c 0 hn d]
    exact left7_live m c ⟨0, Nat.lt_of_succ_lt hn⟩ zero_live d
  | succ k ih =>
    rw [before7_step m c (k + 1) hn d]
    by_cases h2 : (k + 1) / 16 ≤ (k + 1) % 16
    · exact left7_live m c ⟨k + 1, Nat.lt_of_succ_lt hn⟩ h2 d
    · rw [left7_idle m c ⟨k + 1, Nat.lt_of_succ_lt hn⟩ h2 d, ih (Nat.lt_of_succ_lt hn)]
      exact (congrArg Prod.snd (outsAt_C m c ⟨k + 1, Nat.lt_of_succ_lt hn⟩ h2)).symm

theorem before7_pos (c : Dev nD) (t : Fin cfg0.N) (h0 : t.val ≠ 0) (d) :
    (dats m 0 c).before 7 t d = (outsAt m c (t.val - 1) (Nat.lt_of_le_of_lt (Nat.sub_le _ _) t.isLt)).2 := by
  obtain ⟨n, hn⟩ := t
  cases n with
  | zero => exact absurd rfl h0
  | succ k => exact before7_succ m c k hn d

theorem leaves7_live (c : Dev nD) (t : Fin cfg0.N) (h2 : t.val / 16 ≤ t.val % 16) :
    (dats m 0 c).leavesExact 7 t = owns (c : Thread nD τ) (ms7 t) fullShare (outsAt m c t.val t.isLt).2 := by
  unfold Dat.leavesExact; rw [liveAt7 t h2]; dsimp only [dats]

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point: the inputs' buffers hold their blocks; the point's kind selects the run; an accumulating
    point finds in the accumulator buffers what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    leaves0, leaves1, leaves2, leaves3, leaves4, leaves5]
  have hN : t.val < 256 := lt_of_lt_of_eq t.isLt N_0
  by_cases h2 : t.val / 16 ≤ t.val % 16
  · rw [leaves6_live m c t h2, leaves7_live m c t h2]
    by_cases h0 : t.val = 0
    · rw [outsAt_A m c t h0]
      dsimp only
      unfold outA6 outA7
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunA c (grid0.coords t) _ _ _ _ _ _ _ _ _ _ _ _ _ _ _ _ ((hcond1 t).mpr h0) ((hcond2 t).mpr h2) (iblk m c 0 t) (iblk m c 1 t) (iblk m c 2 t) (iblk m c 3 t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverA6 c _ _ _ _ _ _ _ _ _ _ _ _ _ _ _ _ _ _ _ _ _ _ _ _ _)
      unfold owns; iexists _; isplitr
      swap; · iexact H7
      ipureintro; exact View.read_writes_of_cover _ _ _ _ _ (coverA7 c _ _ _ _ _ _ _ _ _ _ _ _ _ _ _ _ _ _ _ _ _ _ _ _ _)
    · rw [outsAt_B m c t h0 h2]
      dsimp only
      simp only [before6_pos m c t h0, before7_pos m c t h0]
      unfold outB6 outB7
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunB c (grid0.coords t) _ _ _ _ _ _ _ _ _ _ _ _ _ _ _ _ (fun h => h0 ((hcond1 t).mp h)) ((hcond2 t).mpr h2) (iblk m c 0 t) (iblk m c 1 t) (iblk m c 2 t) (iblk m c 3 t) (iblk m c 4 t) (iblk m c 5 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverB6 c _ _ _ _ _ _ _ _ _ _ _ _ _ _ _ _ _ _ _ _ _ _ _ _ _ _ _)
      unfold owns; iexists _; isplitr
      swap; · iexact H7
      ipureintro; exact View.read_writes_of_cover _ _ _ _ _ (coverB7 c _ _ _ _ _ _ _ _ _ _ _ _ _ _ _ _ _ _ _ _ _ _ _ _ _ _ _)
  · rw [Dat.leavesExact_idle (dats m 0 c) 6 t (idleAt6 t h2) (noFlush6 t h2),
      Dat.leavesExact_idle (dats m 0 c) 7 t (idleAt7 t h2) (noFlush7 t h2)]
    have h0 : t.val ≠ 0 := fun h => h2 (by rw [h])
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRunC c (grid0.coords t) _ _ _ _ _ _ _ _ _ _ _ _ _ _ _ _ (fun h => h0 ((hcond1 t).mp h)) (fun h => h2 ((hcond2 t).mp h)) (iblk m c 0 t) (iblk m c 1 t) (iblk m c 2 t) (iblk m c 3 t) (iblk m c 4 t) (iblk m c 5 t) ((dats m 0 c).before 6 t d6) ((dats m 0 c).before 7 t d7) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; in every final state each array of the pipeline is at
    what the proof data computes and every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KI.Conds.lean ====
/-
  Where the body's two branches are taken over the 16 x 16 grid, point by point.

  A point `t` of the row-major order has coordinates `(t / 16, t % 16)`. The reset branch (both coordinates
  zero) is taken at the first point only; the accumulating branch (row coordinate at most the column
  coordinate) at the points on or above the diagonal, the first among them. So every point is of one of three
  kinds: the first point (reset, then accumulate), a later point on or above the diagonal (accumulate), a
  point below the diagonal (nothing stored). The two result windows hold one block throughout, are written
  back at the last point only, and are idle exactly at the points below the diagonal.
-/
import proofs.«112286_j20495583936604_1_alg».proof.Proof.Gen.KernelIdeal.Frame
import proofs.«112286_j20495583936604_1_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset branch's condition at grid coordinates `i`. -/
abbrev cond1 (i : grid0.Coords) : Prop := k0_cond1 i = 1#1
/-- The accumulating branch's condition at grid coordinates `i`. -/
abbrev cond2 (i : grid0.Coords) : Prop := k0_cond2 i = 1#1

/-- The reset branch is taken at the first point only. -/
theorem hcond1 : ∀ t : Fin cfg0.N, cond1 (grid0.coords t) ↔ t.val = 0 :=
  (by decide +kernel : ∀ t : Fin grid0.N, cond1 (grid0.coords t) ↔ t.val = 0)
/-- The accumulating branch is taken on and above the diagonal. -/
theorem hcond2 : ∀ t : Fin cfg0.N, cond2 (grid0.coords t) ↔ t.val / 16 ≤ t.val % 16 :=
  (by decide +kernel : ∀ t : Fin grid0.N, cond2 (grid0.coords t) ↔ t.val / 16 ≤ t.val % 16)
/-- A point's row coordinate. -/
theorem coord0 : ∀ t : Fin cfg0.N, ((grid0.coords t) 0).val = t.val / 16 :=
  (by decide +kernel : ∀ t : Fin grid0.N, ((grid0.coords t) 0).val = t.val / 16)
/-- A point's column coordinate. -/
theorem coord1 : ∀ t : Fin cfg0.N, ((grid0.coords t) 1).val = t.val % 16 :=
  (by decide +kernel : ∀ t : Fin grid0.N, ((grid0.coords t) 1).val = t.val % 16)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
/-- On or above the diagonal the body stores into both result windows. -/
theorem liveAt6 : ∀ t : Fin cfg0.N, t.val / 16 ≤ t.val % 16 → cfg0.idle 6 (grid0.coords t) = false := by decide +kernel
theorem liveAt7 : ∀ t : Fin cfg0.N, t.val / 16 ≤ t.val % 16 → cfg0.idle 7 (grid0.coords t) = false := by decide +kernel
/-- Below the diagonal it stores nothing into them, -/
theorem idleAt6 : ∀ t : Fin cfg0.N, ¬t.val / 16 ≤ t.val % 16 → cfg0.idle 6 (grid0.coords t) = true := by decide +kernel
theorem idleAt7 : ∀ t : Fin cfg0.N, ¬t.val / 16 ≤ t.val % 16 → cfg0.idle 7 (grid0.coords t) = true := by decide +kernel
/-- and they are not written back there (only the last point writes back, and it lies on the diagonal). -/
theorem noFlush6 : ∀ t : Fin cfg0.N, ¬t.val / 16 ≤ t.val % 16 → (cfg0.win 6).flush t = false := by decide +kernel
theorem noFlush7 : ∀ t : Fin cfg0.N, ¬t.val / 16 ≤ t.val % 16 → (cfg0.win 7).flush t = false := by decide +kernel

/-! ## The staging memrefs the body is called with -/

abbrev ms0 (t : Fin cfg0.N) : Memref sig .tc .vmem S512x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1 .f32 := win0_7.stage (cfg0.slots t 7)
abbrev hs7 (t : Fin cfg0.N) : (ms7 t).IsWhole := hstage0_7 ((cfg0.slots t 7).cast nbuf0_7)

/-- One staging buffer of each result window, through which its contents are stated. -/
abbrev VO6 : View sig .tc .vmem S1x1 .f32 := (Memref.whole cc0_stg6_0 : Memref sig .tc .vmem S1x1 .f32).view
abbrev VO7 : View sig .tc .vmem S1x1 .f32 := (Memref.whole cc0_stg7_0 : Memref sig .tc .vmem S1x1 .f32).view

end Cert.KernelIdeal.Body

end
-- ==== Proof.KI.RunA.lean ====
/-
  The body at the first point: the reset branch zeroes the two accumulator buffers, whatever they held, and the accumulating branch then adds the first block's sums.
-/
import proofs.«112286_j20495583936604_1_alg».proof.Proof.KI.Conds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- The body's run in this case on whole staging memrefs: the six input buffers at their contents and handed back
    unchanged; the two accumulator buffers end with the listed stores written (last first). The lists are the
    witness the symbolic run finds. -/
noncomputable def kernelRunA (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (hc1 : cond1 i) (hc2 : cond2 i)
    (x0 : Vec F S512x1 .f32) (x1 : Vec F S1x512 .f32) (x2 : Vec F S512x1 .i32) (x3 : Vec F S1x512 .i32) (x4 : Vec F S512x1 .i32) (x5 : Vec F S1x512 .i32) :
    Σ' (L6 : List (View.Piece (Elt F) S1x1 .f32)), { L7 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0__pairwise_bce_kernel i arg2 harg2 arg3 harg3 arg4 harg4 arg5 harg5 arg6 harg6 arg7 harg7 arg8 harg8 arg9 harg9) K } := by
  refine ⟨?_, ?_, fun E K => ?run⟩
  case run =>
    simp only [cc0__pairwise_bce_kernel_eq_skeleton]; unfold cc0__pairwise_bce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

end Cert.KernelIdeal.Body

end
-- ==== Proof.KI.RunB.lean ====
/-
  The body at a later point on or above the diagonal: the reset branch is skipped, the accumulating branch adds the point's block sums to what the two accumulator buffers held.
-/
import proofs.«112286_j20495583936604_1_alg».proof.Proof.KI.Conds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- The body's run in this case on whole staging memrefs: the six input buffers at their contents and handed back
    unchanged; the two accumulator buffers end with the listed stores written (last first). The lists are the
    witness the symbolic run finds. -/
noncomputable def kernelRunB (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (hc1 : ¬cond1 i) (hc2 : cond2 i)
    (x0 : Vec F S512x1 .f32) (x1 : Vec F S1x512 .f32) (x2 : Vec F S512x1 .i32) (x3 : Vec F S1x512 .i32) (x4 : Vec F S512x1 .i32) (x5 : Vec F S1x512 .i32) (xo6 xo7 : Vec F S1x1 .f32) :
    Σ' (L6 : List (View.Piece (Elt F) S1x1 .f32)), { L7 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0__pairwise_bce_kernel i arg2 harg2 arg3 harg3 arg4 harg4 arg5 harg5 arg6 harg6 arg7 harg7 arg8 harg8 arg9 harg9) K } := by
  refine ⟨?_, ?_, fun E K => ?run⟩
  case run =>
    simp only [cc0__pairwise_bce_kernel_eq_skeleton]; unfold cc0__pairwise_bce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

end Cert.KernelIdeal.Body

end
-- ==== Proof.KI.Outs.lean ====
/-
  What the two accumulator buffers hold after the body, case by case and point by point.

  In the two storing cases the last store into each accumulator buffer covers its one element, so the buffer's
  contents after the body are the stored pieces read back. Point by point: after the first point the first
  case's contents; after a later point on or above the diagonal the accumulating case's contents over what
  the point before left; after a point below the diagonal what the point before left, unchanged.
-/
import proofs.«112286_j20495583936604_1_alg».proof.Proof.KI.RunA
import proofs.«112286_j20495583936604_1_alg».proof.Proof.KI.RunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The first point lies on the diagonal. -/
theorem zero_live : (0 : ℕ) / 16 ≤ 0 % 16 := by decide

/-! ## The stored pieces cover the one-element buffers -/

theorem coverA6 (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (hc1 : cond1 i) (hc2 : cond2 i)
    (x0 : Vec F S512x1 .f32) (x1 : Vec F S1x512 .f32) (x2 : Vec F S512x1 .i32) (x3 : Vec F S1x512 .i32) (x4 : Vec F S512x1 .i32) (x5 : Vec F S1x512 .i32) (y : S1x1.Idx) :
    ∃ pc ∈ (kernelRunA c i arg2 harg2 arg3 harg3 arg4 harg4 arg5 harg5 arg6 harg6 arg7 harg7 arg8 harg8 arg9 harg9 hc1 hc2 x0 x1 x2 x3 x4 x5).1, y ∈ pc.1.set :=
  View.cover_of_tiledL (kernelRunA c i arg2 harg2 arg3 harg3 arg4 harg4 arg5 harg5 arg6 harg6 arg7 harg7 arg8 harg8 arg9 harg9 hc1 hc2 x0 x1 x2 x3 x4 x5).1 S1x1.size (by sl_kernel_rfl) y

theorem coverA7 (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (hc1 : cond1 i) (hc2 : cond2 i)
    (x0 : Vec F S512x1 .f32) (x1 : Vec F S1x512 .f32) (x2 : Vec F S512x1 .i32) (x3 : Vec F S1x512 .i32) (x4 : Vec F S512x1 .i32) (x5 : Vec F S1x512 .i32) (y : S1x1.Idx) :
    ∃ pc ∈ (kernelRunA c i arg2 harg2 arg3 harg3 arg4 harg4 arg5 harg5 arg6 harg6 arg7 harg7 arg8 harg8 arg9 harg9 hc1 hc2 x0 x1 x2 x3 x4 x5).2.1, y ∈ pc.1.set :=
  View.cover_of_tiledL (kernelRunA c i arg2 harg2 arg3 harg3 arg4 harg4 arg5 harg5 arg6 harg6 arg7 harg7 arg8 harg8 arg9 harg9 hc1 hc2 x0 x1 x2 x3 x4 x5).2.1 S1x1.size (by sl_kernel_rfl) y

theorem coverB6 (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (hc1 : ¬cond1 i) (hc2 : cond2 i)
    (x0 : Vec F S512x1 .f32) (x1 : Vec F S1x512 .f32) (x2 : Vec F S512x1 .i32) (x3 : Vec F S1x512 .i32) (x4 : Vec F S512x1 .i32) (x5 : Vec F S1x512 .i32) (xo6 xo7 : Vec F S1x1 .f32) (y : S1x1.Idx) :
    ∃ pc ∈ (kernelRunB c i arg2 harg2 arg3 harg3 arg4 harg4 arg5 harg5 arg6 harg6 arg7 harg7 arg8 harg8 arg9 harg9 hc1 hc2 x0 x1 x2 x3 x4 x5 xo6 xo7).1, y ∈ pc.1.set :=
  View.cover_of_tiledL (kernelRunB c i arg2 harg2 arg3 harg3 arg4 harg4 arg5 harg5 arg6 harg6 arg7 harg7 arg8 harg8 arg9 harg9 hc1 hc2 x0 x1 x2 x3 x4 x5 xo6 xo7).1 S1x1.size (by sl_kernel_rfl) y

theorem coverB7 (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (hc1 : ¬cond1 i) (hc2 : cond2 i)
    (x0 : Vec F S512x1 .f32) (x1 : Vec F S1x512 .f32) (x2 : Vec F S512x1 .i32) (x3 : Vec F S1x512 .i32) (x4 : Vec F S512x1 .i32) (x5 : Vec F S1x512 .i32) (xo6 xo7 : Vec F S1x1 .f32) (y : S1x1.Idx) :
    ∃ pc ∈ (kernelRunB c i arg2 harg2 arg3 harg3 arg4 harg4 arg5 harg5 arg6 harg6 arg7 harg7 arg8 harg8 arg9 harg9 hc1 hc2 x0 x1 x2 x3 x4 x5 xo6 xo7).2.1, y ∈ pc.1.set :=
  View.cover_of_tiledL (kernelRunB c i arg2 harg2 arg3 harg3 arg4 harg4 arg5 harg5 arg6 harg6 arg7 harg7 arg8 harg8 arg9 harg9 hc1 hc2 x0 x1 x2 x3 x4 x5 xo6 xo7).2.1 S1x1.size (by sl_kernel_rfl) y

/-! ## What each storing case leaves in the accumulator buffers -/

/-- The loss accumulator after the first point's body. -/
def outA6 (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (hc1 : cond1 i) (hc2 : cond2 i)
    (x0 : Vec F S512x1 .f32) (x1 : Vec F S1x512 .f32) (x2 : Vec F S512x1 .i32) (x3 : Vec F S1x512 .i32) (x4 : Vec F S512x1 .i32) (x5 : Vec F S1x512 .i32) : Vec F S1x1 .f32 :=
  VO6.read (Elt F) (VO6.writes (Elt F) VO6.junk (kernelRunA c i arg2 harg2 arg3 harg3 arg4 harg4 arg5 harg5 arg6 harg6 arg7 harg7 arg8 harg8 arg9 harg9 hc1 hc2 x0 x1 x2 x3 x4 x5).1)
/-- The count accumulator after the first point's body. -/
def outA7 (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (hc1 : cond1 i) (hc2 : cond2 i)
    (x0 : Vec F S512x1 .f32) (x1 : Vec F S1x512 .f32) (x2 : Vec F S512x1 .i32) (x3 : Vec F S1x512 .i32) (x4 : Vec F S512x1 .i32) (x5 : Vec F S1x512 .i32) : Vec F S1x1 .f32 :=
  VO7.read (Elt F) (VO7.writes (Elt F) VO7.junk (kernelRunA c i arg2 harg2 arg3 harg3 arg4 harg4 arg5 harg5 arg6 harg6 arg7 harg7 arg8 harg8 arg9 harg9 hc1 hc2 x0 x1 x2 x3 x4 x5).2.1)
/-- The loss accumulator after an accumulating point's body, over the contents `xo6`, `xo7` found. -/
def outB6 (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (hc1 : ¬cond1 i) (hc2 : cond2 i)
    (x0 : Vec F S512x1 .f32) (x1 : Vec F S1x512 .f32) (x2 : Vec F S512x1 .i32) (x3 : Vec F S1x512 .i32) (x4 : Vec F S512x1 .i32) (x5 : Vec F S1x512 .i32) (xo6 xo7 : Vec F S1x1 .f32) : Vec F S1x1 .f32 :=
  VO6.read (Elt F) (VO6.writes (Elt F) VO6.junk (kernelRunB c i arg2 harg2 arg3 harg3 arg4 harg4 arg5 harg5 arg6 harg6 arg7 harg7 arg8 harg8 arg9 harg9 hc1 hc2 x0 x1 x2 x3 x4 x5 xo6 xo7).1)
/-- The count accumulator after an accumulating point's body. -/
def outB7 (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (hc1 : ¬cond1 i) (hc2 : cond2 i)
    (x0 : Vec F S512x1 .f32) (x1 : Vec F S1x512 .f32) (x2 : Vec F S512x1 .i32) (x3 : Vec F S1x512 .i32) (x4 : Vec F S512x1 .i32) (x5 : Vec F S1x512 .i32) (xo6 xo7 : Vec F S1x1 .f32) : Vec F S1x1 .f32 :=
  VO7.read (Elt F) (VO7.writes (Elt F) VO7.junk (kernelRunB c i arg2 harg2 arg3 harg3 arg4 harg4 arg5 harg5 arg6 harg6 arg7 harg7 arg8 harg8 arg9 harg9 hc1 hc2 x0 x1 x2 x3 x4 x5 xo6 xo7).2.1)

/-! ## Point by point -/

/-- The two accumulator buffers (loss, count) after the body at position `n` of the row-major order. -/
def outsAt (c : Dev nD) : (n : ℕ) → n < cfg0.N → Vec F S1x1 .f32 × Vec F S1x1 .f32
  | 0, hn =>
    (outA6 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) ((hcond1 ⟨0, hn⟩).mpr rfl) ((hcond2 ⟨0, hn⟩).mpr zero_live) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩),
     outA7 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) ((hcond1 ⟨0, hn⟩).mpr rfl) ((hcond2 ⟨0, hn⟩).mpr zero_live) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h2 : (n + 1) / 16 ≤ (n + 1) % 16 then
      (outB6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (fun h => Nat.succ_ne_zero n ((hcond1 ⟨n + 1, hn⟩).mp h)) ((hcond2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).1 (outsAt c n (Nat.lt_of_succ_lt hn)).2,
       outB7 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (fun h => Nat.succ_ne_zero n ((hcond1 ⟨n + 1, hn⟩).mp h)) ((hcond2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).1 (outsAt c n (Nat.lt_of_succ_lt hn)).2)
    else outsAt c n (Nat.lt_of_succ_lt hn)

/-- At the first point: the first case's contents. -/
theorem outsAt_A (c : Dev nD) (t : Fin cfg0.N) (h0 : t.val = 0) :
    outsAt m c t.val t.isLt =
      (outA6 c (grid0.coords t) (ms0 t) (hs0 t) (ms1 t) (hs1 t) (ms2 t) (hs2 t) (ms3 t) (hs3 t) (ms4 t) (hs4 t) (ms5 t) (hs5 t) (ms6 t) (hs6 t) (ms7 t) (hs7 t) ((hcond1 t).mpr h0) ((hcond2 t).mpr (by rw [h0])) (iblk m c 0 t) (iblk m c 1 t) (iblk m c 2 t) (iblk m c 3 t) (iblk m c 4 t) (iblk m c 5 t),
       outA7 c (grid0.coords t) (ms0 t) (hs0 t) (ms1 t) (hs1 t) (ms2 t) (hs2 t) (ms3 t) (hs3 t) (ms4 t) (hs4 t) (ms5 t) (hs5 t) (ms6 t) (hs6 t) (ms7 t) (hs7 t) ((hcond1 t).mpr h0) ((hcond2 t).mpr (by rw [h0])) (iblk m c 0 t) (iblk m c 1 t) (iblk m c 2 t) (iblk m c 3 t) (iblk m c 4 t) (iblk m c 5 t)) := by
  obtain ⟨n, hn⟩ := t
  cases n with
  | zero => rfl
  | succ n => exact absurd h0 (Nat.succ_ne_zero n)

/-- At a later point on or above the diagonal: the accumulating case's contents over what the point before left. -/
theorem outsAt_B (c : Dev nD) (t : Fin cfg0.N) (h0 : t.val ≠ 0) (h2 : t.val / 16 ≤ t.val % 16) :
    outsAt m c t.val t.isLt =
      (outB6 c (grid0.coords t) (ms0 t) (hs0 t) (ms1 t) (hs1 t) (ms2 t) (hs2 t) (ms3 t) (hs3 t) (ms4 t) (hs4 t) (ms5 t) (hs5 t) (ms6 t) (hs6 t) (ms7 t) (hs7 t) (fun h => h0 ((hcond1 t).mp h)) ((hcond2 t).mpr h2) (iblk m c 0 t) (iblk m c 1 t) (iblk m c 2 t) (iblk m c 3 t) (iblk m c 4 t) (iblk m c 5 t) (outsAt m c (t.val - 1) (Nat.lt_of_le_of_lt (Nat.sub_le _ _) t.isLt)).1 (outsAt m c (t.val - 1) (Nat.lt_of_le_of_lt (Nat.sub_le _ _) t.isLt)).2,
       outB7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (fun h => h0 ((hcond1 t).mp h)) ((hcond2 t).mpr h2) (iblk m c 0 t) (iblk m c 1 t) (iblk m c 2 t) (iblk m c 3 t) (iblk m c 4 t) (iblk m c 5 t) (outsAt m c (t.val - 1) (Nat.lt_of_le_of_lt (Nat.sub_le _ _) t.isLt)).1 (outsAt m c (t.val - 1) (Nat.lt_of_le_of_lt (Nat.sub_le _ _) t.isLt)).2) := by
  obtain ⟨n, hn⟩ := t
  cases n with
  | zero => exact absurd rfl h0
  | succ n => exact (dif_pos h2).trans rfl

/-- At a point below the diagonal: what the point before left. -/
theorem outsAt_C (c : Dev nD) (t : Fin cfg0.N) (h2 : ¬t.val / 16 ≤ t.val % 16) :
    outsAt m c t.val t.isLt = outsAt m c (t.val - 1) (Nat.lt_of_le_of_lt (Nat.sub_le _ _) t.isLt) := by
  obtain ⟨n, hn⟩ := t
  cases n with
  | zero => exact absurd zero_live h2
  | succ n => exact (dif_neg h2).trans rfl

end Cert.KernelIdeal.Body

end
-- ==== Proof.KI.RunC.lean ====
/-
  The body at a point below the diagonal: neither branch is taken, nothing is loaded or stored, every buffer is handed back as it was found.
-/
import proofs.«112286_j20495583936604_1_alg».proof.Proof.KI.Conds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- Neither branch taken: the body returns at once, all eight buffers untouched. -/
theorem kernelRunC (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (hc1 : ¬cond1 i) (hc2 : ¬cond2 i)
    (x0 : Vec F S512x1 .f32) (x1 : Vec F S1x512 .f32) (x2 : Vec F S512x1 .i32) (x3 : Vec F S1x512 .i32) (x4 : Vec F S512x1 .i32) (x5 : Vec F S1x512 .i32) (xo6 xo7 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xo7
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xo7) -∗ K ⟨⟩))
      ⊢ wp frame (wpE (defs₀ (F := F)) Variants.none c none) E (cc0__pairwise_bce_kernel i arg2 harg2 arg3 harg3 arg4 harg4 arg5 harg5 arg6 harg6 arg7 harg7 arg8 harg8 arg9 harg9) K := by
  simp only [cc0__pairwise_bce_kernel_eq_skeleton]; unfold cc0__pairwise_bce_kernel_skel
  iintro ⟨H0, H1, H2, H3, H4, H5, H6, H7, Hk⟩
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.KernelIdeal.Body

end
-- ==== Proof.KI.Body.lean ====
/-
  The frame of the program: the pipeline's proof data, the body at a generic grid point, the run.

  Proof data: the arrays as the region finds them; each input window's buffer holds its block at every point;
  the two accumulator windows' buffers hold, after each point, what the recursion over the points says. Both
  accumulator windows keep one block for the whole grid and are written back after the last point only, so
  between points their buffers are untouched: a point finds in them what the last storing point left, however
  many points below the diagonal (which store nothing) lie between. The body at a point is the run of the
  point's case: the first point, a later point on or above the diagonal, a point below it.
-/
import proofs.«112286_j20495583936604_1_alg».proof.Proof.KI.Outs
import proofs.«112286_j20495583936604_1_alg».proof.Proof.KI.RunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
    | ⟨7, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]

/-- Each input window's current buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

theorem leaves0 (c : Dev nD) (t : Fin cfg0.N) :
    (dats m 0 c).leavesExact 0 t = owns (c : Thread nD τ) (ms0 t) fullShare (iblk m c 0 t) := by
  unfold Dat.leavesExact; rw [liveAt0 t, after0]
theorem leaves1 (c : Dev nD) (t : Fin cfg0.N) :
    (dats m 0 c).leavesExact 1 t = owns (c : Thread nD τ) (ms1 t) fullShare (iblk m c 1 t) := by
  unfold Dat.leavesExact; rw [liveAt1 t, after1]
theorem leaves2 (c : Dev nD) (t : Fin cfg0.N) :
    (dats m 0 c).leavesExact 2 t = owns (c : Thread nD τ) (ms2 t) fullShare (iblk m c 2 t) := by
  unfold Dat.leavesExact; rw [liveAt2 t, after2]
theorem leaves3 (c : Dev nD) (t : Fin cfg0.N) :
    (dats m 0 c).leavesExact 3 t = owns (c : Thread nD τ) (ms3 t) fullShare (iblk m c 3 t) := by
  unfold Dat.leavesExact; rw [liveAt3 t, after3]
theorem leaves4 (c : Dev nD) (t : Fin cfg0.N) :
    (dats m 0 c).leavesExact 4 t = owns (c : Thread nD τ) (ms4 t) fullShare (iblk m c 4 t) := by
  unfold Dat.leavesExact; rw [liveAt4 t, after4]
theorem leaves5 (c : Dev nD) (t : Fin cfg0.N) :
    (dats m 0 c).leavesExact 5 t = owns (c : Thread nD τ) (ms5 t) fullShare (iblk m c 5 t) := by
  unfold Dat.leavesExact; rw [liveAt5 t, after5]

/-- After a point the next point finds accumulator window 6's buffer as the body left it: no write-back lies between. -/
theorem before6_step (c : Dev nD) (n : ℕ) (hn : n + 1 < cfg0.N) (d) :
    (dats m 0 c).before 6 ⟨n + 1, hn⟩ d = (dats m 0 c).left 6 ⟨n, Nat.lt_of_succ_lt hn⟩ d := by
  have hN : n + 1 < 256 := lt_of_lt_of_eq hn N_0
  rw [Dat.before_of_pos _ 6 ⟨n + 1, hn⟩ (Nat.succ_ne_zero n) ((cfg0.win 6).fetch_out rfl _)]
  rw [if_neg (fun h => by have := (flush0_6 _).mp h; dsimp only at this; omega)]
  rfl

/-- On or above the diagonal the body leaves its stated contents, -/
theorem left6_live (c : Dev nD) (t : Fin cfg0.N) (h2 : t.val / 16 ≤ t.val % 16) (d) :
    (dats m 0 c).left 6 t d = (outsAt m c t.val t.isLt).1 := by
  unfold Dat.left; rw [liveAt6 t h2]; dsimp only
  unfold Dat.kept
  rw [Pipeline.fill_of_clip_none 6 _ (fun _ => rfl) d ((dats m 0 c).after 6 t), Window.fill_cut]
  dsimp only [dats]

/-- below it what it found. -/
theorem left6_idle (c : Dev nD) (t : Fin cfg0.N) (h2 : ¬t.val / 16 ≤ t.val % 16) (d) :
    (dats m 0 c).left 6 t d = (dats m 0 c).before 6 t d := by
  unfold Dat.left; rw [idleAt6 t h2]

/-- So at every point after the first, accumulator window 6's buffer holds what the recursion over the points
    says the point before left — through a run of points below the diagonal, what the last storing point left. -/
theorem before6_succ (c : Dev nD) (n : ℕ) (hn : n + 1 < cfg0.N) (d) :
    (dats m 0 c).before 6 ⟨n + 1, hn⟩ d = (outsAt m c n (Nat.lt_of_succ_lt hn)).1 := by
  induction n with
  | zero =>
    rw [before6_step m c 0 hn d]
    exact left6_live m c ⟨0, Nat.lt_of_succ_lt hn⟩ zero_live d
  | succ k ih =>
    rw [before6_step m c (k + 1) hn d]
    by_cases h2 : (k + 1) / 16 ≤ (k + 1) % 16
    · exact left6_live m c ⟨k + 1, Nat.lt_of_succ_lt hn⟩ h2 d
    · rw [left6_idle m c ⟨k + 1, Nat.lt_of_succ_lt hn⟩ h2 d, ih (Nat.lt_of_succ_lt hn)]
      exact (congrArg Prod.fst (outsAt_C m c ⟨k + 1, Nat.lt_of_succ_lt hn⟩ h2)).symm

theorem before6_pos (c : Dev nD) (t : Fin cfg0.N) (h0 : t.val ≠ 0) (d) :
    (dats m 0 c).before 6 t d = (outsAt m c (t.val - 1) (Nat.lt_of_le_of_lt (Nat.sub_le _ _) t.isLt)).1 := by
  obtain ⟨n, hn⟩ := t
  cases n with
  | zero => exact absurd rfl h0
  | succ k => exact before6_succ m c k hn d

theorem leaves6_live (c : Dev nD) (t : Fin cfg0.N) (h2 : t.val / 16 ≤ t.val % 16) :
    (dats m 0 c).leavesExact 6 t = owns (c : Thread nD τ) (ms6 t) fullShare (outsAt m c t.val t.isLt).1 := by
  unfold Dat.leavesExact; rw [liveAt6 t h2]; dsimp only [dats]

/-- After a point the next point finds accumulator window 7's buffer as the body left it: no write-back lies between. -/
theorem before7_step (c : Dev nD) (n : ℕ) (hn : n + 1 < cfg0.N) (d) :
    (dats m 0 c).before 7 ⟨n + 1, hn⟩ d = (dats m 0 c).left 7 ⟨n, Nat.lt_of_succ_lt hn⟩ d := by
  have hN : n + 1 < 256 := lt_of_lt_of_eq hn N_0
  rw [Dat.before_of_pos _ 7 ⟨n + 1, hn⟩ (Nat.succ_ne_zero n) ((cfg0.win 7).fetch_out rfl _)]
  rw [if_neg (fun h => by have := (flush0_7 _).mp h; dsimp only at this; omega)]
  rfl

/-- On or above the diagonal the body leaves its stated contents, -/
theorem left7_live (c : Dev nD) (t : Fin cfg0.N) (h2 : t.val / 16 ≤ t.val % 16) (d) :
    (dats m 0 c).left 7 t d = (outsAt m c t.val t.isLt).2 := by
  unfold Dat.left; rw [liveAt7 t h2]; dsimp only
  unfold Dat.kept
  rw [Pipeline.fill_of_clip_none 7 _ (fun _ => rfl) d ((dats m 0 c).after 7 t), Window.fill_cut]
  dsimp only [dats]

/-- below it what it found. -/
theorem left7_idle (c : Dev nD) (t : Fin cfg0.N) (h2 : ¬t.val / 16 ≤ t.val % 16) (d) :
    (dats m 0 c).left 7 t d = (dats m 0 c).before 7 t d := by
  unfold Dat.left; rw [idleAt7 t h2]

/-- So at every point after the first, accumulator window 7's buffer holds what the recursion over the points
    says the point before left — through a run of points below the diagonal, what the last storing point left. -/
theorem before7_succ (c : Dev nD) (n : ℕ) (hn : n + 1 < cfg0.N) (d) :
    (dats m 0 c).before 7 ⟨n + 1, hn⟩ d = (outsAt m c n (Nat.lt_of_succ_lt hn)).2 := by
  induction n with
  | zero =>
    rw [before7_step m c 0 hn d]
    exact left7_live m c ⟨0, Nat.lt_of_succ_lt hn⟩ zero_live d
  | succ k ih =>
    rw [before7_step m c (k + 1) hn d]
    by_cases h2 : (k + 1) / 16 ≤ (k + 1) % 16
    · exact left7_live m c ⟨k + 1, Nat.lt_of_succ_lt hn⟩ h2 d
    · rw [left7_idle m c ⟨k + 1, Nat.lt_of_succ_lt hn⟩ h2 d, ih (Nat.lt_of_succ_lt hn)]
      exact (congrArg Prod.snd (outsAt_C m c ⟨k + 1, Nat.lt_of_succ_lt hn⟩ h2)).symm

theorem before7_pos (c : Dev nD) (t : Fin cfg0.N) (h0 : t.val ≠ 0) (d) :
    (dats m 0 c).before 7 t d = (outsAt m c (t.val - 1) (Nat.lt_of_le_of_lt (Nat.sub_le _ _) t.isLt)).2 := by
  obtain ⟨n, hn⟩ := t
  cases n with
  | zero => exact absurd rfl h0
  | succ k => exact before7_succ m c k hn d

theorem leaves7_live (c : Dev nD) (t : Fin cfg0.N) (h2 : t.val / 16 ≤ t.val % 16) :
    (dats m 0 c).leavesExact 7 t = owns (c : Thread nD τ) (ms7 t) fullShare (outsAt m c t.val t.isLt).2 := by
  unfold Dat.leavesExact; rw [liveAt7 t h2]; dsimp only [dats]

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point: the inputs' buffers hold their blocks; the point's kind selects the run; an accumulating
    point finds in the accumulator buffers what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    leaves0, leaves1, leaves2, leaves3, leaves4, leaves5]
  have hN : t.val < 256 := lt_of_lt_of_eq t.isLt N_0
  by_cases h2 : t.val / 16 ≤ t.val % 16
  · rw [leaves6_live m c t h2, leaves7_live m c t h2]
    by_cases h0 : t.val = 0
    · rw [outsAt_A m c t h0]
      dsimp only
      unfold outA6 outA7
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunA c (grid0.coords t) _ _ _ _ _ _ _ _ _ _ _ _ _ _ _ _ ((hcond1 t).mpr h0) ((hcond2 t).mpr h2) (iblk m c 0 t) (iblk m c 1 t) (iblk m c 2 t) (iblk m c 3 t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverA6 c _ _ _ _ _ _ _ _ _ _ _ _ _ _ _ _ _ _ _ _ _ _ _ _ _)
      unfold owns; iexists _; isplitr
      swap; · iexact H7
      ipureintro; exact View.read_writes_of_cover _ _ _ _ _ (coverA7 c _ _ _ _ _ _ _ _ _ _ _ _ _ _ _ _ _ _ _ _ _ _ _ _ _)
    · rw [outsAt_B m c t h0 h2]
      dsimp only
      simp only [before6_pos m c t h0, before7_pos m c t h0]
      unfold outB6 outB7
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunB c (grid0.coords t) _ _ _ _ _ _ _ _ _ _ _ _ _ _ _ _ (fun h => h0 ((hcond1 t).mp h)) ((hcond2 t).mpr h2) (iblk m c 0 t) (iblk m c 1 t) (iblk m c 2 t) (iblk m c 3 t) (iblk m c 4 t) (iblk m c 5 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverB6 c _ _ _ _ _ _ _ _ _ _ _ _ _ _ _ _ _ _ _ _ _ _ _ _ _ _ _)
      unfold owns; iexists _; isplitr
      swap; · iexact H7
      ipureintro; exact View.read_writes_of_cover _ _ _ _ _ (coverB7 c _ _ _ _ _ _ _ _ _ _ _ _ _ _ _ _ _ _ _ _ _ _ _ _ _ _ _)
  · rw [Dat.leavesExact_idle (dats m 0 c) 6 t (idleAt6 t h2) (noFlush6 t h2),
      Dat.leavesExact_idle (dats m 0 c) 7 t (idleAt7 t h2) (noFlush7 t h2)]
    have h0 : t.val ≠ 0 := fun h => h2 (by rw [h])
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRunC c (grid0.coords t) _ _ _ _ _ _ _ _ _ _ _ _ _ _ _ _ (fun h => h0 ((hcond1 t).mp h)) (fun h => h2 ((hcond2 t).mp h)) (iblk m c 0 t) (iblk m c 1 t) (iblk m c 2 t) (iblk m c 3 t) (iblk m c 4 t) (iblk m c 5 t) ((dats m 0 c).before 6 t d6) ((dats m 0 c).before 7 t d7) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; in every final state each array of the pipeline is at
    what the proof data computes and every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.KI.Pieces.lean ====
/-
  What the two storing cases leave in the accumulator buffers, as the body's named stored values.

  Each accumulator buffer has one element and every store into it covers it, so after the body it holds the
  last stored value. At the first point that value is computed from the zero the reset branch has just stored;
  at a later accumulating point from what the buffer held.
-/
import proofs.«112286_j20495583936604_1_alg».proof.Proof.KI.Outs
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every access of the body is at the origin of its buffer. -/
theorem hz : (![0, 0] : Fin 2 → Nat) = fun _ => 0 := funext fun a => by fin_cases a <;> rfl

/-- First point, loss accumulator: the block's sum added to the reset value. -/
theorem outA6_eq (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (hc1 : cond1 i) (hc2 : cond2 i)
    (x0 : Vec F S512x1 .f32) (x1 : Vec F S1x512 .f32) (x2 : Vec F S512x1 .i32) (x3 : Vec F S1x512 .i32) (x4 : Vec F S512x1 .i32) (x5 : Vec F S1x512 .i32) :
    outA6 c i arg2 harg2 arg3 harg3 arg4 harg4 arg5 harg5 arg6 harg6 arg7 harg7 arg8 harg8 arg9 harg9 hc1 hc2 x0 x1 x2 x3 x4 x5
      = k0_pay3 (F := F) (k0_pay7 (F := F) (BitVec.ofNat 32 (i 0).val) (BitVec.ofNat 32 (i 1).val) x2 x3 x4 x5) (k0_pay8 (F := F) x0 x1 x4) (k0_pay9 (F := F) x0 x1) (k0_pay1 (F := F)) := by
  unfold outA6
  rw [View.read_writes_eq_canon _ _ _ (coverA6 c i arg2 harg2 arg3 harg3 arg4 harg4 arg5 harg5 arg6 harg6 arg7 harg7 arg8 harg8 arg9 harg9 hc1 hc2 x0 x1 x2 x3 x4 x5)]
  unfold kernelRunA
  dsimp only
  sl_unfold_words
  rw [View.canon_cons_unit_zero (S := S1x1) hz]
  simp only [View.readCov_unit_zero (S := S1x1) _ hz, View.readAt_eq_ld, harg2.read_unread, harg3.read_unread, harg4.read_unread, harg5.read_unread, harg6.read_unread, harg7.read_unread, harg8.read_unread, harg9.read_unread, View.ld_unit_zero (S := S512x1) hz, View.ld_unit_zero (S := S1x512) hz, View.ld_unit_zero (S := S1x1) hz]
/-- First point, count accumulator. -/
theorem outA7_eq (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (hc1 : cond1 i) (hc2 : cond2 i)
    (x0 : Vec F S512x1 .f32) (x1 : Vec F S1x512 .f32) (x2 : Vec F S512x1 .i32) (x3 : Vec F S1x512 .i32) (x4 : Vec F S512x1 .i32) (x5 : Vec F S1x512 .i32) :
    outA7 c i arg2 harg2 arg3 harg3 arg4 harg4 arg5 harg5 arg6 harg6 arg7 harg7 arg8 harg8 arg9 harg9 hc1 hc2 x0 x1 x2 x3 x4 x5
      = k0_pay4 (F := F) (k0_pay7 (F := F) (BitVec.ofNat 32 (i 0).val) (BitVec.ofNat 32 (i 1).val) x2 x3 x4 x5) (k0_pay2 (F := F)) := by
  unfold outA7
  rw [View.read_writes_eq_canon _ _ _ (coverA7 c i arg2 harg2 arg3 harg3 arg4 harg4 arg5 harg5 arg6 harg6 arg7 harg7 arg8 harg8 arg9 harg9 hc1 hc2 x0 x1 x2 x3 x4 x5)]
  unfold kernelRunA
  dsimp only
  sl_unfold_words
  rw [View.canon_cons_unit_zero (S := S1x1) hz]
  simp only [View.readCov_unit_zero (S := S1x1) _ hz, View.readAt_eq_ld, harg2.read_unread, harg3.read_unread, harg4.read_unread, harg5.read_unread, harg6.read_unread, harg7.read_unread, harg8.read_unread, harg9.read_unread, View.ld_unit_zero (S := S512x1) hz, View.ld_unit_zero (S := S1x512) hz, View.ld_unit_zero (S := S1x1) hz]
/-- Accumulating point, loss accumulator: the block's sum added to what the buffer held. -/
theorem outB6_eq (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (hc1 : ¬cond1 i) (hc2 : cond2 i)
    (x0 : Vec F S512x1 .f32) (x1 : Vec F S1x512 .f32) (x2 : Vec F S512x1 .i32) (x3 : Vec F S1x512 .i32) (x4 : Vec F S512x1 .i32) (x5 : Vec F S1x512 .i32) (xo6 xo7 : Vec F S1x1 .f32) :
    outB6 c i arg2 harg2 arg3 harg3 arg4 harg4 arg5 harg5 arg6 harg6 arg7 harg7 arg8 harg8 arg9 harg9 hc1 hc2 x0 x1 x2 x3 x4 x5 xo6 xo7
      = k0_pay3 (F := F) (k0_pay7 (F := F) (BitVec.ofNat 32 (i 0).val) (BitVec.ofNat 32 (i 1).val) x2 x3 x4 x5) (k0_pay8 (F := F) x0 x1 x4) (k0_pay9 (F := F) x0 x1) xo6 := by
  unfold outB6
  rw [View.read_writes_eq_canon _ _ _ (coverB6 c i arg2 harg2 arg3 harg3 arg4 harg4 arg5 harg5 arg6 harg6 arg7 harg7 arg8 harg8 arg9 harg9 hc1 hc2 x0 x1 x2 x3 x4 x5 xo6 xo7)]
  unfold kernelRunB
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x1) hz, View.ld_unit_zero (S := S1x512) hz, View.ld_unit_zero (S := S1x1) hz]
/-- Accumulating point, count accumulator. -/
theorem outB7_eq (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (hc1 : ¬cond1 i) (hc2 : cond2 i)
    (x0 : Vec F S512x1 .f32) (x1 : Vec F S1x512 .f32) (x2 : Vec F S512x1 .i32) (x3 : Vec F S1x512 .i32) (x4 : Vec F S512x1 .i32) (x5 : Vec F S1x512 .i32) (xo6 xo7 : Vec F S1x1 .f32) :
    outB7 c i arg2 harg2 arg3 harg3 arg4 harg4 arg5 harg5 arg6 harg6 arg7 harg7 arg8 harg8 arg9 harg9 hc1 hc2 x0 x1 x2 x3 x4 x5 xo6 xo7
      = k0_pay4 (F := F) (k0_pay7 (F := F) (BitVec.ofNat 32 (i 0).val) (BitVec.ofNat 32 (i 1).val) x2 x3 x4 x5) xo7 := by
  unfold outB7
  rw [View.read_writes_eq_canon _ _ _ (coverB7 c i arg2 harg2 arg3 harg3 arg4 harg4 arg5 harg5 arg6 harg6 arg7 harg7 arg8 harg8 arg9 harg9 hc1 hc2 x0 x1 x2 x3 x4 x5 xo6 xo7)]
  unfold kernelRunB
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x1) hz, View.ld_unit_zero (S := S1x512) hz, View.ld_unit_zero (S := S1x1) hz]

end Cert.KernelIdeal.Body

end
-- ==== Proof.Spec.lean ====
/-
  The mathematics both programs compute, stated once over plain functions of a position.

  Inputs: a segment id `b r`, a score `s r` and a label `y r` at each of the 8192 positions. An ordered pair
  of positions `(r, c)` is COUNTED when `r` comes before `c`, both lie in one segment and their labels differ.
  The loss of a pair is the logistic loss of the logit `d = s r - s c` against the target `[y r = 1]`, in the
  stable form `max d 0 - d * z + log (1 + exp (-|d|))` on the extended reals. The result is the sum of the
  losses of the counted pairs divided by their number.

  The same sums are then written block by block: the 8192 positions are 16 runs of 512, a block `(i, j)` is
  the pairs whose row lies in run `i` and whose column lies in run `j`, and the blocks are visited in row-major
  order `t = 16 * i + j`; a block below the diagonal (`j < i`) holds no counted pair.
-/
import Idealize.ShloMosaic.PureOps.Ideal
import Idealize.ShloMosaic.PureOps.Ideal.Laws

noncomputable section

namespace Cert.Spec

open Idealize.ShloMosaic

/-- The logistic loss of a pair with scores `sr` (row) and `sc` (column) and row label `yr`:
    `max d 0 - d * z + log1p (exp (-|d|))` with `d = sr - sc`, `z = 1` when `yr = 1` and `0` otherwise,
    `|d| = max d (-d)`. -/
def loss (sr sc : EReal) (yr : BitVec 32) : EReal :=
  (max (sr - sc) 0 - (sr - sc) * (if yr = 1#32 then (1 : EReal) else 0))
    + Ideal.log1p (Ideal.exp (-(max (sr - sc) (-(sr - sc)))))

/-- The pair at global positions `gr` (row) and `gc` (column) is counted: the row comes first, the
    segments agree, the labels differ. -/
def Counted (gr gc : ℕ) (br bc yr yc : BitVec 32) : Prop := gr < gc ∧ br = bc ∧ yr ≠ yc

instance (gr gc : ℕ) (br bc yr yc : BitVec 32) : Decidable (Counted gr gc br bc yr yc) := by
  unfold Counted; infer_instance

/-- A pair's term of the loss sum: its loss when counted, else zero. -/
def termLoss (gr gc : ℕ) (br bc yr yc : BitVec 32) (sr sc : EReal) : EReal :=
  if Counted gr gc br bc yr yc then loss sr sc yr else 0

/-- A pair's term of the count: one when counted, else zero. -/
def termCnt (gr gc : ℕ) (br bc yr yc : BitVec 32) : EReal :=
  if Counted gr gc br bc yr yc then 1 else 0

variable (b y : Fin 8192 → BitVec 32) (s : Fin 8192 → EReal)

/-- The loss term of the pair of positions `(r, c)`. -/
def lossAt (r c : Fin 8192) : EReal := termLoss r.val c.val (b r) (b c) (y r) (y c) (s r) (s c)
/-- The count term of the pair of positions `(r, c)`. -/
def cntAt (r c : Fin 8192) : EReal := termCnt r.val c.val (b r) (b c) (y r) (y c)

/-- The sum of the losses of all counted pairs. -/
def lossSum : EReal := ∑ r : Fin 8192, ∑ c : Fin 8192, lossAt b y s r c
/-- The number of counted pairs. -/
def cntSum : EReal := ∑ r : Fin 8192, ∑ c : Fin 8192, cntAt b y r c
/-- The mean loss over the counted pairs. -/
def result : EReal := Ideal.div (lossSum b y s) (cntSum b y)

/-- Position `r` of run `i`: `512 * i + r` (read modulo 8192, so that it is a position whatever `i`, `r`). -/
def gidx (i r : ℕ) : Fin 8192 := ⟨(512 * i + r) % 8192, Nat.mod_lt _ (by decide)⟩

theorem gidx_val (i r : ℕ) (hi : i < 16) (hr : r < 512) : (gidx i r).val = 512 * i + r := by
  unfold gidx; exact Nat.mod_eq_of_lt (by omega)

/-- The loss summed over block `(i, j)`. -/
def blkLoss (i j : ℕ) : EReal := ∑ r : Fin 512, ∑ c : Fin 512, lossAt b y s (gidx i r.val) (gidx j c.val)
/-- The count summed over block `(i, j)`. -/
def blkCnt (i j : ℕ) : EReal := ∑ r : Fin 512, ∑ c : Fin 512, cntAt b y (gidx i r.val) (gidx j c.val)

/-- The loss accumulated over the blocks visited up to and including point `n` of the row-major order
    (`n = 16 * i + j`); a block below the diagonal is skipped. -/
def accLoss : ℕ → EReal
  | 0 => blkLoss b y s 0 0
  | n + 1 => if (n + 1) / 16 ≤ (n + 1) % 16 then accLoss n + blkLoss b y s ((n + 1) / 16) ((n + 1) % 16) else accLoss n

/-- The count accumulated the same way. -/
def accCnt : ℕ → EReal
  | 0 => blkCnt b y 0 0
  | n + 1 => if (n + 1) / 16 ≤ (n + 1) % 16 then accCnt n + blkCnt b y ((n + 1) / 16) ((n + 1) % 16) else accCnt n

end Cert.Spec

end
-- ==== Proof.KI.Blocks.lean ====
/-
  A window's block at a grid point, read at one element, is an element of an argument array.

  The six input arrays are the three arguments viewed as a column (8192 x 1) and as a row (1 x 8192). At the
  point `t` of the row-major order the column windows hold rows `512 * (t / 16) ..` and the row windows hold
  columns `512 * (t % 16) ..`; element `r` of a block is the argument's element at position
  `512 * (t / 16) + r` (a column window) or `512 * (t % 16) + r` (a row window).
-/
import proofs.«112286_j20495583936604_1_alg».proof.Proof.KI.Conds
import proofs.«112286_j20495583936604_1_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## A reshaped argument read at an index

The column view (8192 x 1) and the row view (1 x 8192) of a flat array of 8192 elements keep the row-major
position: the element at row `i * 512 + r` of the column view, or at column `i * 512 + r` of the row view, is the
flat array's element at position `512 * i + r`. -/

/-- The column view at row `i * 512 + r` is the flat array at position `512 * i + r`. -/
theorem col_read {α : Type} (x : S8192.Idx → α) (h : S8192.ShapeCasts S8192x1) (j : S8192x1.Idx) (i r : ℕ)
    (hi : i < 16) (hr : r < 512) (h0 : (j 0).val = i * 512 + 1 * r) :
    shapeCast S8192x1 x h j = x (ix1 (Cert.Spec.gidx i r)) := by
  refine shapeCast_apply x h j (ix1 (Cert.Spec.gidx i r)) ?_
  rw [Shape.rowMajor_val_one, Shape.rowMajor_val_two]
  show (Cert.Spec.gidx i r).val = (j 0).val * 1 + (j 1).val
  have h1 : (j 1).val < 1 := (j 1).isLt
  rw [Cert.Spec.gidx_val i r hi hr, h0]
  omega

/-- The row view at column `i * 512 + r` is the flat array at position `512 * i + r`. -/
theorem row_read {α : Type} (x : S8192.Idx → α) (h : S8192.ShapeCasts S1x8192) (j : S1x8192.Idx) (i r : ℕ)
    (hi : i < 16) (hr : r < 512) (h1 : (j 1).val = i * 512 + 1 * r) :
    shapeCast S1x8192 x h j = x (ix1 (Cert.Spec.gidx i r)) := by
  refine shapeCast_apply x h j (ix1 (Cert.Spec.gidx i r)) ?_
  rw [Shape.rowMajor_val_one, Shape.rowMajor_val_two]
  show (Cert.Spec.gidx i r).val = (j 0).val * 8192 + (j 1).val
  have h0 : (j 0).val < 1 := (j 0).isLt
  rw [Cert.Spec.gidx_val i r hi hr, h1]
  omega

/-! ## The block index at a point

The grid has 256 points; the point `t` has coordinates `(t / 16, t % 16)`, both below 16, so the 32-bit words the
index maps compute from them hold the coordinates themselves. -/

theorem pt_lt (t : Fin cfg0.N) : t.val < 256 := t.isLt.trans_eq N_0

/-- The row coordinate as a 32-bit word, read back as a natural. -/
theorem word_row (t : Fin cfg0.N) : (BitVec.ofNat 32 ((grid0.coords t) 0).val).toNat = t.val / 16 := by
  have ht := pt_lt t
  rw [BitVec.toNat_ofNat, coord0, Nat.mod_eq_of_lt (by omega)]

/-- The column coordinate as a 32-bit word, read back as a natural. -/
theorem word_col (t : Fin cfg0.N) : (BitVec.ofNat 32 ((grid0.coords t) 1).val).toNat = t.val % 16 := by
  have ht := pt_lt t
  rw [BitVec.toNat_ofNat, coord1, Nat.mod_eq_of_lt (by omega)]

/-! ## The six input arrays as the region finds them

Each is a reshape of an argument, written before the region and by nothing else. -/

theorem V0_eq (c : Dev nD) :
    (V m c main_v0 : S8192x1.Idx → Elt F .f32) = shapeCast S8192x1 (m ((c : Thread nD τ).loc main_arg1)) shapeCasts_S8192_S8192x1 := by
  show StableHlo.after hostOps0 (fun b => m (c, b)) (Proc.devRef .tc main_v0) = _
  after_results
  rfl
theorem V1_eq (c : Dev nD) :
    (V m c main_v1 : S1x8192.Idx → Elt F .f32) = shapeCast S1x8192 (m ((c : Thread nD τ).loc main_arg1)) shapeCasts_S8192_S1x8192 := by
  show StableHlo.after hostOps0 (fun b => m (c, b)) (Proc.devRef .tc main_v1) = _
  after_results
  rfl
theorem V2_eq (c : Dev nD) :
    (V m c main_v2 : S8192x1.Idx → Elt F .i32) = shapeCast S8192x1 (m ((c : Thread nD τ).loc main_arg0)) shapeCasts_S8192_S8192x1 := by
  show StableHlo.after hostOps0 (fun b => m (c, b)) (Proc.devRef .tc main_v2) = _
  after_results
  rfl
theorem V3_eq (c : Dev nD) :
    (V m c main_v3 : S1x8192.Idx → Elt F .i32) = shapeCast S1x8192 (m ((c : Thread nD τ).loc main_arg0)) shapeCasts_S8192_S1x8192 := by
  show StableHlo.after hostOps0 (fun b => m (c, b)) (Proc.devRef .tc main_v3) = _
  after_results
  rfl
theorem V4_eq (c : Dev nD) :
    (V m c main_v4 : S8192x1.Idx → Elt F .i32) = shapeCast S8192x1 (m ((c : Thread nD τ).loc main_arg2)) shapeCasts_S8192_S8192x1 := by
  show StableHlo.after hostOps0 (fun b => m (c, b)) (Proc.devRef .tc main_v4) = _
  after_results
  rfl
theorem V5_eq (c : Dev nD) :
    (V m c main_v5 : S1x8192.Idx → Elt F .i32) = shapeCast S1x8192 (m ((c : Thread nD τ).loc main_arg2)) shapeCasts_S8192_S1x8192 := by
  show StableHlo.after hostOps0 (fun b => m (c, b)) (Proc.devRef .tc main_v5) = _
  after_results
  rfl

/-! ## The blocks at an element

A column window's block at `t` starts at row `(t / 16) * 512` of its array, a row window's at column
`(t % 16) * 512`; the element `r` of the block is the array's element `r` further along that axis. -/

/-- Scores, as a column: element `r` of the block at `t` is the score at position `512 * (t / 16) + r`. -/
theorem iblk0_at (c : Dev nD) (t : Fin cfg0.N) (r : Fin 512) :
    (iblk m c 0 t : Vec F S512x1 .f32) (ix2 r 0) = m ((c : Thread nD τ).loc main_arg1) (ix1 (Cert.Spec.gidx (t.val / 16) r.val)) := by
  show V m c main_v0 (((cfg0.win 0).blk t).view.emb (ix2 r 0)) = _
  rw [V0_eq]
  have ht := pt_lt t
  refine col_read _ _ _ (t.val / 16) r.val (by omega) r.isLt ?_
  show (BitVec.ofNat 32 ((grid0.coords t) 0).val).toNat * 512 + 1 * r.val = t.val / 16 * 512 + 1 * r.val
  rw [word_row]
/-- Scores, as a row: element `r` of the block at `t` is the score at position `512 * (t % 16) + r`. -/
theorem iblk1_at (c : Dev nD) (t : Fin cfg0.N) (r : Fin 512) :
    (iblk m c 1 t : Vec F S1x512 .f32) (ix2 0 r) = m ((c : Thread nD τ).loc main_arg1) (ix1 (Cert.Spec.gidx (t.val % 16) r.val)) := by
  show V m c main_v1 (((cfg0.win 1).blk t).view.emb (ix2 0 r)) = _
  rw [V1_eq]
  have ht := pt_lt t
  refine row_read _ _ _ (t.val % 16) r.val (by omega) r.isLt ?_
  show (BitVec.ofNat 32 ((grid0.coords t) 1).val).toNat * 512 + 1 * r.val = t.val % 16 * 512 + 1 * r.val
  rw [word_col]
/-- Segment ids, as a column. -/
theorem iblk2_at (c : Dev nD) (t : Fin cfg0.N) (r : Fin 512) :
    (iblk m c 2 t : Vec F S512x1 .i32) (ix2 r 0) = m ((c : Thread nD τ).loc main_arg0) (ix1 (Cert.Spec.gidx (t.val / 16) r.val)) := by
  show V m c main_v2 (((cfg0.win 2).blk t).view.emb (ix2 r 0)) = _
  rw [V2_eq]
  have ht := pt_lt t
  refine col_read _ _ _ (t.val / 16) r.val (by omega) r.isLt ?_
  show (BitVec.ofNat 32 ((grid0.coords t) 0).val).toNat * 512 + 1 * r.val = t.val / 16 * 512 + 1 * r.val
  rw [word_row]
/-- Segment ids, as a row. -/
theorem iblk3_at (c : Dev nD) (t : Fin cfg0.N) (r : Fin 512) :
    (iblk m c 3 t : Vec F S1x512 .i32) (ix2 0 r) = m ((c : Thread nD τ).loc main_arg0) (ix1 (Cert.Spec.gidx (t.val % 16) r.val)) := by
  show V m c main_v3 (((cfg0.win 3).blk t).view.emb (ix2 0 r)) = _
  rw [V3_eq]
  have ht := pt_lt t
  refine row_read _ _ _ (t.val % 16) r.val (by omega) r.isLt ?_
  show (BitVec.ofNat 32 ((grid0.coords t) 1).val).toNat * 512 + 1 * r.val = t.val % 16 * 512 + 1 * r.val
  rw [word_col]
/-- Labels, as a column. -/
theorem iblk4_at (c : Dev nD) (t : Fin cfg0.N) (r : Fin 512) :
    (iblk m c 4 t : Vec F S512x1 .i32) (ix2 r 0) = m ((c : Thread nD τ).loc main_arg2) (ix1 (Cert.Spec.gidx (t.val / 16) r.val)) := by
  show V m c main_v4 (((cfg0.win 4).blk t).view.emb (ix2 r 0)) = _
  rw [V4_eq]
  have ht := pt_lt t
  refine col_read _ _ _ (t.val / 16) r.val (by omega) r.isLt ?_
  show (BitVec.ofNat 32 ((grid0.coords t) 0).val).toNat * 512 + 1 * r.val = t.val / 16 * 512 + 1 * r.val
  rw [word_row]
/-- Labels, as a row. -/
theorem iblk5_at (c : Dev nD) (t : Fin cfg0.N) (r : Fin 512) :
    (iblk m c 5 t : Vec F S1x512 .i32) (ix2 0 r) = m ((c : Thread nD τ).loc main_arg2) (ix1 (Cert.Spec.gidx (t.val % 16) r.val)) := by
  show V m c main_v5 (((cfg0.win 5).blk t).view.emb (ix2 0 r)) = _
  rw [V5_eq]
  have ht := pt_lt t
  refine row_read _ _ _ (t.val % 16) r.val (by omega) r.isLt ?_
  show (BitVec.ofNat 32 ((grid0.coords t) 1).val).toNat * 512 + 1 * r.val = t.val % 16 * 512 + 1 * r.val
  rw [word_col]

end Cert.KernelIdeal.Body

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.KI.PayValue.lean ====
/-
  What the kernel body adds to its two accumulators at one grid point, at the ideal instance, as sums of the
  specification's pair terms over the point's 512 x 512 block.
-/
import proofs.«112286_j20495583936604_1_alg».proof.Proof.Gen.KernelIdeal.Skeleton
import proofs.«112286_j20495583936604_1_alg».proof.Proof.Spec
import proofs.«112286_j20495583936604_1_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx

/-! ## Words -/

/-- The word of a run's number times 512 is the word of the product: for `i < 16` nothing wraps. -/
theorem muli512 (i : ℕ) (hi : i < 16) : Scalar.muli (BitVec.ofNat 32 i) 512#32 = BitVec.ofNat 32 (512 * i) := by
  apply BitVec.eq_of_toNat_eq
  simp [Scalar.muli, IntOp.muli, BitVec.toNat_mul]
  omega

/-- The sum of two words of naturals is the word of the sum. -/
theorem addi_ofNat (a b : ℕ) : IntOp.addi (BitVec.ofNat 32 a) (BitVec.ofNat 32 b) = BitVec.ofNat 32 (a + b) := by
  apply BitVec.eq_of_toNat_eq
  simp [IntOp.addi, BitVec.toNat_add]

/-- The word of a natural below `2 ^ 31`, read signed, is that natural. -/
theorem toInt_ofNat_small (a : ℕ) (ha : a < 2 ^ 31) : (BitVec.ofNat 32 a).toInt = (a : ℤ) := by
  have h1 : (BitVec.ofNat 32 a).toNat = a := by simp; omega
  rw [BitVec.toInt_eq_toNat_of_lt (by rw [h1]; omega), h1]

/-- The signed order of the words of two naturals below `2 ^ 31` is the order of the naturals. -/
theorem slt_ofNat (a b : ℕ) (ha : a < 2 ^ 31) (hb : b < 2 ^ 31) :
    (BitVec.ofNat 32 a).slt (BitVec.ofNat 32 b) = decide (a < b) := by
  unfold BitVec.slt
  rw [toInt_ofNat_small a ha, toInt_ofNat_small b hb]
  simp

/-- The equality test of two words decides their equality. -/
theorem beq_decide (x y : BitVec 32) : (x == y) = decide (x = y) := by
  by_cases h : x = y
  · simp [h]
  · have e : (x == y) = false := beq_eq_false_iff_ne.mpr h
    rw [e]; simp [h]

/-- The inequality test of two words decides their inequality. -/
theorem bne_decide (x y : BitVec 32) : (x != y) = decide (x ≠ y) := by
  by_cases h : x = y
  · simp [h]
  · have e : (x != y) = true := bne_iff_ne.mpr h
    rw [e]; simp [h]

/-- The mask's word at a pair: the conjunction of the three tests is the bit of "the pair is counted". -/
theorem maskword (a b : ℕ) (ha : a < 2 ^ 31) (hb : b < 2 ^ 31) (x y u v : BitVec 32) :
    IntOp.andi (IntOp.andi (IntOp.cmpi .slt (BitVec.ofNat 32 a) (BitVec.ofNat 32 b)) (IntOp.cmpi .eq x y)) (IntOp.cmpi .ne u v)
      = if Cert.Spec.Counted a b x y u v then 1#1 else 0#1 := by
  unfold IntOp.cmpi IntOp.andi Cert.Spec.Counted
  simp only [slt_ofNat a b ha hb, beq_decide, bne_decide]
  by_cases h1 : a < b <;> by_cases h2 : x = y <;> by_cases h3 : u = v <;> simp [h1, h2, h3]

/-- A one-bit word widened to 32 bits and converted: one for the set bit, zero for the clear bit. -/
theorem sitofp_bit (b : BitVec 1) :
    FloatOps.sitofp (F := Ideal) .f32 (b.setWidth 32) = if b = 1#1 then (1 : EReal) else 0 := by
  show (((b.setWidth 32).toInt : ℝ) : EReal) = _
  rcases BitVec.eq_zero_or_eq_one b with h | h
  · subst h
    have : ((0#1).setWidth 32).toInt = 0 := by decide
    rw [this]; simp
  · subst h
    have : ((1#1).setWidth 32).toInt = 1 := by decide
    rw [this]; simp

/-- The bit of the test `x = 1` is set exactly when `x` is the word `1`. -/
theorem cmpi_eq_one (x : BitVec 32) : (IntOp.cmpi .eq x 1#32 = 1#1) ↔ x = 1#32 := by
  unfold IntOp.cmpi
  simp only [beq_decide]
  by_cases h : x = 1#32 <;> simp [h]

/-- A select on the bit of a decidable proposition is the `if` on the proposition. -/
theorem select_ite {α : Type} (C : Prop) [Decidable C] (a b : α) :
    Scalar.select (if C then 1#1 else 0#1) a b = if C then a else b := by
  by_cases h : C
  · rw [if_pos h, if_pos h]; exact select_one a b
  · rw [if_neg h, if_neg h]; exact select_zero a b

/-! ## Layout -/

/-- The one index of the 1 x 1 shape. -/
theorem idx11 (j : (⟨2, ![1, 1]⟩ : Shape).Idx) : j = ix2 (0 : Fin 1) (0 : Fin 1) := by
  funext a
  match a with
  | ⟨0, _⟩ => exact Fin.ext (by have := idx2_lt0 j; show (j 0).val = 0; omega)
  | ⟨1, _⟩ => exact Fin.ext (by have := idx2_lt1 j; show (j 1).val = 0; omega)

/-- A sum over the rows (axis 0) of a column [a, 1], read at the one index of [1]: the sum of the column. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin a, src (ix2 k (0 : Fin 1)) := by
  rw [Ideal.multiReduction_add_single]
  refine Finset.sum_congr rfl fun k _ => congrArg src (funext fun ax => Fin.ext ?_)
  match ax with
  | ⟨0, _⟩ => rfl
  | ⟨1, _⟩ => rfl

/-! ## The payloads at a pair -/

/-- The logit at the pair `(r, c)`: the row's score minus the column's score. -/
theorem pay6_apply (sr : Vec Ideal S512x1 .f32) (sc : Vec Ideal S1x512 .f32) (r c : Fin 512) :
    k0_pay6 (F := Ideal) sr sc (ix2 r c) = sr (ix2 r (0 : Fin 1)) - sc (ix2 (0 : Fin 1) c) := by
  unfold k0_pay6
  refine (subf_apply _ _ _).trans ?_
  rw [Cert.RowOps.broadcastTo_a1_ab_apply, broadcastTo_1b_ab_apply, shapeCast_self, shapeCast_self]

/-- The absolute logit at the pair `(r, c)`: `max d (-d)` with `d` the logit. -/
theorem pay9_apply (sr : Vec Ideal S512x1 .f32) (sc : Vec Ideal S1x512 .f32) (r c : Fin 512) :
    k0_pay9 (F := Ideal) sr sc (ix2 r c)
      = max (sr (ix2 r (0 : Fin 1)) - sc (ix2 (0 : Fin 1) c)) (-(sr (ix2 r (0 : Fin 1)) - sc (ix2 (0 : Fin 1) c))) := by
  unfold k0_pay9
  show max (k0_pay6 (F := Ideal) sr sc (ix2 r c)) (-(k0_pay6 (F := Ideal) sr sc (ix2 r c))) = _
  rw [pay6_apply]

/-- The row labels, cast to their own shape, are the row labels. -/
theorem pay5_eq (yr : Vec Ideal S512x1 .i32) : k0_pay5 (F := Ideal) yr = yr := by
  unfold k0_pay5
  exact shapeCast_self _ _

/-- `max d 0 - d * z` at the pair `(r, c)`, with `d` the logit and `z` one when the row's label is `1`, else zero. -/
theorem pay8_apply (sr : Vec Ideal S512x1 .f32) (sc : Vec Ideal S1x512 .f32) (yr : Vec Ideal S512x1 .i32) (r c : Fin 512) :
    k0_pay8 (F := Ideal) sr sc yr (ix2 r c)
      = max (sr (ix2 r (0 : Fin 1)) - sc (ix2 (0 : Fin 1) c)) 0
          - (sr (ix2 r (0 : Fin 1)) - sc (ix2 (0 : Fin 1) c)) * (if yr (ix2 r (0 : Fin 1)) = 1#32 then (1 : EReal) else 0) := by
  unfold k0_pay8
  refine (subf_apply _ _ _).trans ?_
  refine congrArg₂ (· - ·) ?_ ?_
  · refine (maximumf_apply _ _ _).trans ?_
    rw [pay6_apply]
    show max _ (Ideal.ofBits .f32 0x00000000#32) = _
    rw [Ideal.ofBits_zero_f32]
  · refine (mulf_apply _ _ _).trans ?_
    rw [pay6_apply, Cert.RowOps.broadcastTo_a1_ab_apply, pay5_eq]
    refine congrArg (fun z : EReal => (sr (ix2 r (0 : Fin 1)) - sc (ix2 (0 : Fin 1) c)) * z) ?_
    show FloatOps.sitofp (F := Ideal) .f32 ((IntOp.cmpi .eq (yr (ix2 r (0 : Fin 1))) 1#32).setWidth 32) = _
    rw [sitofp_bit]
    by_cases h : yr (ix2 r (0 : Fin 1)) = 1#32
    · rw [if_pos ((cmpi_eq_one _).mpr h), if_pos h]
    · rw [if_neg (fun h' => h ((cmpi_eq_one _).mp h')), if_neg h]

/-- The global position of row `r` of run `i`, as a word: `512 * i + r`. -/
theorem rowpos (i : ℕ) (hi : i < 16) (h : S512x1.Iotas .tc 32 [0]) (r : Fin 512) :
    addi (broadcast S512x1 (Scalar.muli (BitVec.ofNat 32 i) 512#32)) (iota .tc S512x1 32 [0] h) (ix2 r (0 : Fin 1))
      = BitVec.ofNat 32 (512 * i + r.val) := by
  show IntOp.addi (Scalar.muli (BitVec.ofNat 32 i) 512#32) (iota .tc S512x1 32 [0] h (ix2 r (0 : Fin 1))) = _
  rw [muli512 i hi, iota_single_apply]
  exact addi_ofNat _ _

/-- The global position of column `c` of run `j`, as a word: `512 * j + c`. -/
theorem colpos (j : ℕ) (hj : j < 16) (h : S1x512.Iotas .tc 32 [1]) (c : Fin 512) :
    addi (broadcast S1x512 (Scalar.muli (BitVec.ofNat 32 j) 512#32)) (iota .tc S1x512 32 [1] h) (ix2 (0 : Fin 1) c)
      = BitVec.ofNat 32 (512 * j + c.val) := by
  show IntOp.addi (Scalar.muli (BitVec.ofNat 32 j) 512#32) (iota .tc S1x512 32 [1] h (ix2 (0 : Fin 1) c)) = _
  rw [muli512 j hj, iota_single_apply]
  exact addi_ofNat _ _

/-- The mask's bit at the pair `(r, c)` of block `(i, j)` is set exactly when the pair is counted. -/
theorem pay7_apply (i j : ℕ) (hi : i < 16) (hj : j < 16)
    (br : Vec Ideal S512x1 .i32) (bc : Vec Ideal S1x512 .i32) (yr : Vec Ideal S512x1 .i32) (yc : Vec Ideal S1x512 .i32)
    (r c : Fin 512) :
    k0_pay7 (F := Ideal) (BitVec.ofNat 32 i) (BitVec.ofNat 32 j) br bc yr yc (ix2 r c)
      = if Cert.Spec.Counted (512 * i + r.val) (512 * j + c.val) (br (ix2 r (0 : Fin 1))) (bc (ix2 (0 : Fin 1) c))
            (yr (ix2 r (0 : Fin 1))) (yc (ix2 (0 : Fin 1) c)) then 1#1 else 0#1 := by
  unfold k0_pay7
  simp only [andi, cmpi]
  simp only [Cert.RowOps.broadcastTo_a1_ab_apply, broadcastTo_1b_ab_apply, shapeCast_self, pay5_eq, rowpos i hi, colpos j hj]
  have hr := r.isLt
  have hc := c.isLt
  exact maskword _ _ (by omega) (by omega) _ _ _ _

/-! ## The block's terms -/

/-- The masked loss at a pair is the specification's loss term of that pair. -/
theorem masked_apply (i j : ℕ) (hi : i < 16) (hj : j < 16)
    (sr : Vec Ideal S512x1 .f32) (sc : Vec Ideal S1x512 .f32) (br : Vec Ideal S512x1 .i32) (bc : Vec Ideal S1x512 .i32)
    (yr : Vec Ideal S512x1 .i32) (yc : Vec Ideal S1x512 .i32) (r c : Fin 512) :
    select (k0_pay7 (F := Ideal) (BitVec.ofNat 32 i) (BitVec.ofNat 32 j) br bc yr yc)
        (addf (k0_pay8 (F := Ideal) sr sc yr)
          (log1p (exp (subf (broadcast S512x512 (Scalar.ofBits (F := Ideal) .f32 0x00000000#32)) (k0_pay9 (F := Ideal) sr sc)))))
        (broadcast S512x512 (Scalar.ofBits (F := Ideal) .f32 0x00000000#32)) (ix2 r c)
      = Cert.Spec.termLoss (512 * i + r.val) (512 * j + c.val) (br (ix2 r (0 : Fin 1))) (bc (ix2 (0 : Fin 1) c))
          (yr (ix2 r (0 : Fin 1))) (yc (ix2 (0 : Fin 1) c)) (sr (ix2 r (0 : Fin 1))) (sc (ix2 (0 : Fin 1) c)) := by
  refine (select_apply _ _ _ _).trans ?_
  rw [pay7_apply i j hi hj, select_ite]
  unfold Cert.Spec.termLoss
  by_cases h : Cert.Spec.Counted (512 * i + r.val) (512 * j + c.val) (br (ix2 r (0 : Fin 1))) (bc (ix2 (0 : Fin 1) c))
      (yr (ix2 r (0 : Fin 1))) (yc (ix2 (0 : Fin 1) c))
  · rw [if_pos h, if_pos h]
    refine (addf_apply _ _ _).trans ?_
    unfold Cert.Spec.loss
    rw [pay8_apply]
    refine congrArg₂ (fun a b : EReal => a + b) rfl ?_
    show Ideal.log1p (Ideal.exp (Ideal.ofBits .f32 0x00000000#32 - k0_pay9 (F := Ideal) sr sc (ix2 r c))) = _
    rw [pay9_apply, Ideal.ofBits_zero_f32, zero_sub]
  · rw [if_neg h, if_neg h]
    exact Ideal.ofBits_zero_f32

/-- The mask's bit widened and converted at a pair is the specification's count term of that pair. -/
theorem cnt_apply (i j : ℕ) (hi : i < 16) (hj : j < 16)
    (br : Vec Ideal S512x1 .i32) (bc : Vec Ideal S1x512 .i32) (yr : Vec Ideal S512x1 .i32) (yc : Vec Ideal S1x512 .i32)
    (h32 : 1 < 32) (r c : Fin 512) :
    (sitofp .f32 (extui 32 (k0_pay7 (F := Ideal) (BitVec.ofNat 32 i) (BitVec.ofNat 32 j) br bc yr yc) h32) : FVec Ideal S512x512 .f32) (ix2 r c)
      = Cert.Spec.termCnt (512 * i + r.val) (512 * j + c.val) (br (ix2 r (0 : Fin 1))) (bc (ix2 (0 : Fin 1) c))
          (yr (ix2 r (0 : Fin 1))) (yc (ix2 (0 : Fin 1) c)) := by
  show FloatOps.sitofp (F := Ideal) .f32
      ((k0_pay7 (F := Ideal) (BitVec.ofNat 32 i) (BitVec.ofNat 32 j) br bc yr yc (ix2 r c)).setWidth 32) = _
  rw [sitofp_bit, pay7_apply i j hi hj]
  unfold Cert.Spec.termCnt
  by_cases h : Cert.Spec.Counted (512 * i + r.val) (512 * j + c.val) (br (ix2 r (0 : Fin 1))) (bc (ix2 (0 : Fin 1) c))
      (yr (ix2 r (0 : Fin 1))) (yc (ix2 (0 : Fin 1) c))
  · rw [if_pos h, if_pos h, if_pos rfl]
  · rw [if_neg h, if_neg h, if_neg (by decide)]

/-- A 512 x 512 vector summed along its lanes, kept as a column, summed along its rows and kept as 1 x 1: the double sum. -/
theorem blockSum_apply (v : FVec Ideal S512x512 .f32)
    (h1 : S512x512.Reduces [1] S512) (hφ1 : FKind.Formats .f32) (hacc1 : (0x00000000#32 : BitVec 32) = FKind.add.neutral .f32 hφ1)
    (c1 : S512.ShapeCasts S512x1)
    (h0 : S512x1.Reduces [0] S1) (hφ0 : FKind.Formats .f32) (hacc0 : (0x00000000#32 : BitVec 32) = FKind.add.neutral .f32 hφ0)
    (c0 : S1.ShapeCasts S1x1) :
    shapeCast S1x1 (multiReduction .add [0] S1 (shapeCast S512x1 (multiReduction .add [1] S512 v 0x00000000#32 h1 hφ1 hacc1) c1)
        0x00000000#32 h0 hφ0 hacc0) c0 (ix2 (0 : Fin 1) (0 : Fin 1))
      = ∑ r : Fin 512, ∑ c : Fin 512, v (ix2 r c) := by
  rw [Cert.RowOps.shapeCast_a_a1_apply]
  refine (colSum_apply _ _ h0 hφ0 hacc0).trans ?_
  refine Finset.sum_congr rfl fun r _ => ?_
  rw [Cert.RowOps.shapeCast_a_a1_apply]
  exact Cert.RowOps.laneSum_apply v _ h1 hφ1 hacc1 r

/-! ## The stored values -/

/-- The stored loss accumulator at block `(i, j)`: what the buffer held (`acc`) plus the block's loss terms, the
    rows' data read from the column blocks `sr`, `br`, `yr` (512 x 1) and the columns' from the row blocks `sc`,
    `bc`, `yc` (1 x 512); row `r` of the block is global position `512 * i + r`, column `c` is `512 * j + c`. -/
theorem pay3_eq (i j : ℕ) (hi : i < 16) (hj : j < 16)
    (sr : Vec Ideal S512x1 .f32) (sc : Vec Ideal S1x512 .f32) (br : Vec Ideal S512x1 .i32) (bc : Vec Ideal S1x512 .i32)
    (yr : Vec Ideal S512x1 .i32) (yc : Vec Ideal S1x512 .i32) (acc : Vec Ideal S1x1 .f32) :
    k0_pay3 (F := Ideal) (k0_pay7 (F := Ideal) (BitVec.ofNat 32 i) (BitVec.ofNat 32 j) br bc yr yc) (k0_pay8 (F := Ideal) sr sc yr) (k0_pay9 (F := Ideal) sr sc) acc
      = fun _ => acc (ix2 0 0) + ∑ r : Fin 512, ∑ c : Fin 512,
          Cert.Spec.termLoss (512 * i + r.val) (512 * j + c.val) (br (ix2 r 0)) (bc (ix2 0 c)) (yr (ix2 r 0)) (yc (ix2 0 c)) (sr (ix2 r 0)) (sc (ix2 0 c)) := by
  funext j0
  rw [idx11 j0]
  unfold k0_pay3
  refine (addf_apply _ _ _).trans ?_
  refine congrArg₂ (fun a b : EReal => a + b) ?_ ?_
  · rw [shapeCast_self]
  · refine (blockSum_apply _ _ _ _ _ _ _ _ _).trans ?_
    refine Finset.sum_congr rfl fun r _ => Finset.sum_congr rfl fun c _ => ?_
    exact masked_apply i j hi hj sr sc br bc yr yc r c

/-- The stored count accumulator at block `(i, j)`: what the buffer held plus the block's count terms. -/
theorem pay4_eq (i j : ℕ) (hi : i < 16) (hj : j < 16)
    (br : Vec Ideal S512x1 .i32) (bc : Vec Ideal S1x512 .i32)
    (yr : Vec Ideal S512x1 .i32) (yc : Vec Ideal S1x512 .i32) (acc : Vec Ideal S1x1 .f32) :
    k0_pay4 (F := Ideal) (k0_pay7 (F := Ideal) (BitVec.ofNat 32 i) (BitVec.ofNat 32 j) br bc yr yc) acc
      = fun _ => acc (ix2 0 0) + ∑ r : Fin 512, ∑ c : Fin 512,
          Cert.Spec.termCnt (512 * i + r.val) (512 * j + c.val) (br (ix2 r 0)) (bc (ix2 0 c)) (yr (ix2 r 0)) (yc (ix2 0 c)) := by
  funext j0
  rw [idx11 j0]
  unfold k0_pay4
  refine (addf_apply _ _ _).trans ?_
  refine congrArg₂ (fun a b : EReal => a + b) ?_ ?_
  · rw [shapeCast_self]
  · refine (blockSum_apply _ _ _ _ _ _ _ _ _).trans ?_
    refine Finset.sum_congr rfl fun r _ => Finset.sum_congr rfl fun c _ => ?_
    exact cnt_apply i j hi hj br bc yr yc _ r c

/-- The two reset stores write zero. -/
theorem pay1_eq : k0_pay1 (F := Ideal) = fun _ => (0 : EReal) := by
  funext j0
  unfold k0_pay1
  exact Ideal.ofBits_zero_f32
theorem pay2_eq : k0_pay2 (F := Ideal) = fun _ => (0 : EReal) := by
  funext j0
  unfold k0_pay2
  exact Ideal.ofBits_zero_f32

end Cert.KernelIdeal.PayValue

end
-- ==== Proof.KI.Value.lean ====
/-
  At the ideal instance the two accumulator buffers hold, after each grid point, the specification's running
  sums: the loss and the count accumulated over the blocks visited so far, the blocks below the diagonal
  skipped.

  A point t of the row-major order is the block (t / 16, t % 16). What the body adds at a storing point is the
  double sum, over the block's 512 x 512 pairs, of the specification's pair terms read from the six windows'
  blocks; element r of a column window's block is the argument's element at position 512 * (t / 16) + r and
  element c of a row window's block the one at 512 * (t % 16) + c, so that double sum is the specification's
  block sum. The statement then follows by induction on the point, with the same three cases on both sides:
  the first point, a later point on or above the diagonal, a point below it.
-/
import proofs.«112286_j20495583936604_1_alg».proof.Proof.KI.Pieces
import proofs.«112286_j20495583936604_1_alg».proof.Proof.KI.Blocks
import proofs.«112286_j20495583936604_1_alg».proof.Proof.KI.PayValue
import proofs.«112286_j20495583936604_1_alg».proof.Proof.Spec

set_option maxRecDepth 16384

noncomputable section

namespace Cert.KernelIdeal.KValue

open Cert.KernelIdeal Cert.KernelIdeal.Gen Cert.KernelIdeal.Body
open Idealize.ShloMosaic Idealize.ShloMosaic.TcCoe Idealize.ShloMosaic.ValueIdx Idealize.SL.Sem

variable (m : (ℓ : Loc nD τ sig) → Buf (Elt Ideal) ℓ)

/-- The segment ids, scores and labels on core `c` as functions of a position. -/
abbrev bOf (c : Dev nD) : Fin 8192 → BitVec 32 := fun r => m ((c : Thread nD τ).loc main_arg0) (ix1 r)
abbrev sOf (c : Dev nD) : Fin 8192 → EReal := fun r => m ((c : Thread nD τ).loc main_arg1) (ix1 r)
abbrev yOf (c : Dev nD) : Fin 8192 → BitVec 32 := fun r => m ((c : Thread nD τ).loc main_arg2) (ix1 r)

/-! ## A point's block -/

/-- A point's row coordinate is below 16. -/
theorem row_lt (t : Fin cfg0.N) : t.val / 16 < 16 := by
  have hN : t.val < 256 := lt_of_lt_of_eq t.isLt N_0
  omega

/-- A point's column coordinate is below 16. -/
theorem col_lt (t : Fin cfg0.N) : t.val % 16 < 16 := Nat.mod_lt _ (by decide)

/-- The loss terms of the pairs of the block at point `t`, read from the six windows' blocks, sum to the
    specification's loss of block `(t / 16, t % 16)`. -/
theorem blk_loss (c : Dev nD) (t : Fin cfg0.N) :
    (∑ r : Fin 512, ∑ q : Fin 512,
      Cert.Spec.termLoss (512 * (t.val / 16) + r.val) (512 * (t.val % 16) + q.val)
        ((iblk m c 2 t : Vec Ideal S512x1 .i32) (ix2 r 0)) ((iblk m c 3 t : Vec Ideal S1x512 .i32) (ix2 0 q))
        ((iblk m c 4 t : Vec Ideal S512x1 .i32) (ix2 r 0)) ((iblk m c 5 t : Vec Ideal S1x512 .i32) (ix2 0 q))
        ((iblk m c 0 t : Vec Ideal S512x1 .f32) (ix2 r 0)) ((iblk m c 1 t : Vec Ideal S1x512 .f32) (ix2 0 q)))
      = Cert.Spec.blkLoss (bOf m c) (yOf m c) (sOf m c) (t.val / 16) (t.val % 16) := by
  unfold Cert.Spec.blkLoss
  refine Finset.sum_congr rfl fun r _ => Finset.sum_congr rfl fun q _ => ?_
  rw [iblk0_at, iblk1_at, iblk2_at, iblk3_at, iblk4_at, iblk5_at]
  unfold Cert.Spec.lossAt
  rw [Cert.Spec.gidx_val _ _ (row_lt t) r.isLt, Cert.Spec.gidx_val _ _ (col_lt t) q.isLt]

/-- The count terms of the pairs of the block at point `t` sum to the specification's count of the block. -/
theorem blk_cnt (c : Dev nD) (t : Fin cfg0.N) :
    (∑ r : Fin 512, ∑ q : Fin 512,
      Cert.Spec.termCnt (512 * (t.val / 16) + r.val) (512 * (t.val % 16) + q.val)
        ((iblk m c 2 t : Vec Ideal S512x1 .i32) (ix2 r 0)) ((iblk m c 3 t : Vec Ideal S1x512 .i32) (ix2 0 q))
        ((iblk m c 4 t : Vec Ideal S512x1 .i32) (ix2 r 0)) ((iblk m c 5 t : Vec Ideal S1x512 .i32) (ix2 0 q)))
      = Cert.Spec.blkCnt (bOf m c) (yOf m c) (t.val / 16) (t.val % 16) := by
  unfold Cert.Spec.blkCnt
  refine Finset.sum_congr rfl fun r _ => Finset.sum_congr rfl fun q _ => ?_
  rw [iblk2_at, iblk3_at, iblk4_at, iblk5_at]
  unfold Cert.Spec.cntAt
  rw [Cert.Spec.gidx_val _ _ (row_lt t) r.isLt, Cert.Spec.gidx_val _ _ (col_lt t) q.isLt]

/-! ## One point -/

/-- After the first point the accumulators hold the first block's sums. -/
theorem step_first (c : Dev nD) (t : Fin cfg0.N) (h0 : t.val = 0) :
    outsAt (F := Ideal) m c t.val t.isLt
      = (fun _ => Cert.Spec.blkLoss (bOf m c) (yOf m c) (sOf m c) (t.val / 16) (t.val % 16),
         fun _ => Cert.Spec.blkCnt (bOf m c) (yOf m c) (t.val / 16) (t.val % 16)) := by
  rw [outsAt_A m c t h0, outA6_eq, outA7_eq, coord0, coord1,
    PayValue.pay3_eq _ _ (row_lt t) (col_lt t), PayValue.pay4_eq _ _ (row_lt t) (col_lt t),
    PayValue.pay1_eq, PayValue.pay2_eq, blk_loss, blk_cnt, zero_add, zero_add]

/-- After a later point on or above the diagonal each accumulator holds what it held plus the block's sum. -/
theorem step_acc (c : Dev nD) (t : Fin cfg0.N) (h0 : t.val ≠ 0) (h2 : t.val / 16 ≤ t.val % 16) :
    outsAt (F := Ideal) m c t.val t.isLt
      = (fun _ => (outsAt (F := Ideal) m c (t.val - 1) (Nat.lt_of_le_of_lt (Nat.sub_le _ _) t.isLt)).1 (ix2 0 0)
            + Cert.Spec.blkLoss (bOf m c) (yOf m c) (sOf m c) (t.val / 16) (t.val % 16),
         fun _ => (outsAt (F := Ideal) m c (t.val - 1) (Nat.lt_of_le_of_lt (Nat.sub_le _ _) t.isLt)).2 (ix2 0 0)
            + Cert.Spec.blkCnt (bOf m c) (yOf m c) (t.val / 16) (t.val % 16)) := by
  rw [outsAt_B m c t h0 h2, outB6_eq, outB7_eq, coord0, coord1,
    PayValue.pay3_eq _ _ (row_lt t) (col_lt t), PayValue.pay4_eq _ _ (row_lt t) (col_lt t), blk_loss, blk_cnt]

/-! ## Every point -/

/-- After point `n` the loss accumulator holds the loss accumulated over the blocks up to `n`, the count
    accumulator their count. -/
theorem outsAt_eq (c : Dev nD) (n : ℕ) (hn : n < cfg0.N) :
    outsAt (F := Ideal) m c n hn
      = (fun _ => Cert.Spec.accLoss (bOf m c) (yOf m c) (sOf m c) n, fun _ => Cert.Spec.accCnt (bOf m c) (yOf m c) n) := by
  induction n with
  | zero =>
    refine (step_first m c ⟨0, hn⟩ rfl).trans ?_
    show (fun _ => Cert.Spec.blkLoss (bOf m c) (yOf m c) (sOf m c) (0 / 16) (0 % 16),
        fun _ => Cert.Spec.blkCnt (bOf m c) (yOf m c) (0 / 16) (0 % 16)) = _
    rw [Nat.zero_div, Nat.zero_mod, Cert.Spec.accLoss, Cert.Spec.accCnt]
  | succ n ih =>
    have hp : n < cfg0.N := Nat.lt_of_succ_lt hn
    by_cases h2 : (n + 1) / 16 ≤ (n + 1) % 16
    · have hs := step_acc m c ⟨n + 1, hn⟩ (Nat.succ_ne_zero n) h2
      have e : outsAt (F := Ideal) m c ((⟨n + 1, hn⟩ : Fin cfg0.N).val - 1)
          (Nat.lt_of_le_of_lt (Nat.sub_le _ _) (⟨n + 1, hn⟩ : Fin cfg0.N).isLt)
          = (fun _ => Cert.Spec.accLoss (bOf m c) (yOf m c) (sOf m c) n,
             fun _ => Cert.Spec.accCnt (bOf m c) (yOf m c) n) := ih hp
      rw [e] at hs
      refine hs.trans ?_
      rw [Cert.Spec.accLoss, Cert.Spec.accCnt, if_pos h2, if_pos h2]
    · refine (outsAt_C m c ⟨n + 1, hn⟩ h2).trans ?_
      refine (ih hp).trans ?_
      rw [Cert.Spec.accLoss, Cert.Spec.accCnt, if_neg h2, if_neg h2]

end Cert.KernelIdeal.KValue

end
-- ==== Proof.SpecLaws.lean ====
/-
  The block decomposition of the two sums of the specification: the sum over all ordered pairs of the 8192
  positions is the sum over the 16 x 16 blocks of 512 x 512 pairs; a block below the diagonal contributes
  nothing (each of its rows is at or after each of its columns, so no pair in it is counted); and the blocks on
  or above the diagonal, taken in row-major order, give the running sums `accLoss` / `accCnt`. Sums of
  extended reals may be regrouped and reordered freely (addition there is commutative and associative), so
  no finiteness is used.
-/
import proofs.«112286_j20495583936604_1_alg».proof.Proof.Spec
import Mathlib.Algebra.BigOperators.Fin
import Mathlib.Algebra.BigOperators.Group.Finset.Basic
import Mathlib.Logic.Equiv.Fin.Basic
import Mathlib.Data.EReal.Basic

noncomputable section

namespace Cert.Spec

open Idealize.ShloMosaic

/-! ### Regrouping a sum over the positions by runs -/

/-- The positions are the pairs (run, offset): `(i, r) ↦ 512 * i + r` is a bijection of
    `Fin 16 × Fin 512` with `Fin 8192`. -/
def posEquiv : Fin 16 × Fin 512 ≃ Fin 8192 := finProdFinEquiv

/-- The bijection sends `(i, r)` to position `r` of run `i`. -/
theorem posEquiv_apply (i : Fin 16) (r : Fin 512) : posEquiv (i, r) = gidx i.val r.val := by
  apply Fin.ext
  show r.val + 512 * i.val = (512 * i.val + r.val) % 8192
  have hi := i.isLt
  have hr := r.isLt
  omega

/-- A sum over the 8192 positions is the sum over the 16 runs of the sums over the 512 offsets. -/
theorem sum_pos (F : Fin 8192 → EReal) :
    ∑ x : Fin 8192, F x = ∑ i : Fin 16, ∑ r : Fin 512, F (gidx i.val r.val) := by
  rw [← Equiv.sum_comp posEquiv F, Fintype.sum_prod_type]
  refine Finset.sum_congr rfl fun i _ => Finset.sum_congr rfl fun r _ => ?_
  rw [posEquiv_apply]

/-- A sum over all ordered pairs of positions is the sum over the 16 x 16 blocks of the sums over the
    512 x 512 pairs of a block. -/
theorem sum_pairs (f : Fin 8192 → Fin 8192 → EReal) :
    ∑ r : Fin 8192, ∑ c : Fin 8192, f r c
      = ∑ i : Fin 16, ∑ j : Fin 16, ∑ r : Fin 512, ∑ c : Fin 512,
          f (gidx i.val r.val) (gidx j.val c.val) := by
  rw [sum_pos (fun r => ∑ c : Fin 8192, f r c)]
  refine Finset.sum_congr rfl fun i _ => ?_
  calc ∑ r : Fin 512, ∑ c : Fin 8192, f (gidx i.val r.val) c
      = ∑ r : Fin 512, ∑ j : Fin 16, ∑ c : Fin 512, f (gidx i.val r.val) (gidx j.val c.val) :=
        Finset.sum_congr rfl fun r _ => sum_pos (fun c => f (gidx i.val r.val) c)
    _ = ∑ j : Fin 16, ∑ r : Fin 512, ∑ c : Fin 512, f (gidx i.val r.val) (gidx j.val c.val) :=
        Finset.sum_comm

/-- A sum over the 16 x 16 blocks is the sum over the 256 points `t = 16 * i + j` of the row-major order. -/
theorem sum_blocks (G : ℕ → ℕ → EReal) :
    ∑ i : Fin 16, ∑ j : Fin 16, G i.val j.val = ∑ t ∈ Finset.range 256, G (t / 16) (t % 16) := by
  rw [← Fin.sum_univ_eq_sum_range (fun t => G (t / 16) (t % 16)) 256]
  rw [← Equiv.sum_comp (finProdFinEquiv : Fin 16 × Fin 16 ≃ Fin 256), Fintype.sum_prod_type]
  refine Finset.sum_congr rfl fun i _ => Finset.sum_congr rfl fun j _ => ?_
  show G i.val j.val = G ((j.val + 16 * i.val) / 16) ((j.val + 16 * i.val) % 16)
  have hi := i.isLt
  have hj := j.isLt
  have h1 : (j.val + 16 * i.val) / 16 = i.val := by omega
  have h2 : (j.val + 16 * i.val) % 16 = j.val := by omega
  rw [h1, h2]

/-- A running sum that starts at `g 0` and at each later point `t` adds `g t` exactly when
    `t / 16 ≤ t % 16` is the sum of `g` over the points up to `n` on or above the diagonal. -/
theorem acc_eq_sum (g acc : ℕ → EReal) (h0 : acc 0 = g 0)
    (hs : ∀ n, acc (n + 1) = if (n + 1) / 16 ≤ (n + 1) % 16 then acc n + g (n + 1) else acc n)
    (n : ℕ) : acc n = ∑ t ∈ Finset.range (n + 1), if t / 16 ≤ t % 16 then g t else 0 := by
  induction n with
  | zero => simp [h0]
  | succ n ih =>
    rw [Finset.sum_range_succ, hs, ← ih]
    split
    · rfl
    · rw [add_zero]

variable (b y : Fin 8192 → BitVec 32) (s : Fin 8192 → EReal)

/-- In a block below the diagonal every row position is at or after every column position, so no pair
    is counted. -/
theorem not_counted_below (i j r c : ℕ) (hi : i < 16) (hj : j < 16) (h : j < i) (hr : r < 512)
    (hc : c < 512) (br bc yr yc : BitVec 32) :
    ¬ Counted (gidx i r).val (gidx j c).val br bc yr yc := by
  rw [gidx_val i r hi hr, gidx_val j c hj hc]
  intro hC
  have := hC.1
  omega

/-- A block below the diagonal holds no counted pair: every row position is at or after every column
    position. -/
theorem blkLoss_below (i j : ℕ) (hi : i < 16) (hj : j < 16) (h : j < i) : blkLoss b y s i j = 0 := by
  unfold blkLoss
  refine Finset.sum_eq_zero fun r _ => Finset.sum_eq_zero fun c _ => ?_
  unfold lossAt termLoss
  exact if_neg (not_counted_below i j r.val c.val hi hj h r.isLt c.isLt _ _ _ _)

theorem blkCnt_below (i j : ℕ) (hi : i < 16) (hj : j < 16) (h : j < i) : blkCnt b y i j = 0 := by
  unfold blkCnt
  refine Finset.sum_eq_zero fun r _ => Finset.sum_eq_zero fun c _ => ?_
  unfold cntAt termCnt
  exact if_neg (not_counted_below i j r.val c.val hi hj h r.isLt c.isLt _ _ _ _)

/-- The whole loss sum is the sum accumulated over the 256 blocks in row-major order. -/
theorem lossSum_eq_acc : lossSum b y s = accLoss b y s 255 := by
  rw [acc_eq_sum (fun t => blkLoss b y s (t / 16) (t % 16)) (accLoss b y s) rfl (fun _ => rfl) 255]
  unfold lossSum
  rw [sum_pairs]
  show ∑ i : Fin 16, ∑ j : Fin 16, blkLoss b y s i.val j.val = _
  rw [sum_blocks (fun i j => blkLoss b y s i j)]
  refine Finset.sum_congr rfl fun t ht => ?_
  have ht' : t < 256 := Finset.mem_range.mp ht
  split
  · rfl
  · exact blkLoss_below b y s _ _ (by omega) (by omega) (by omega)

/-- The whole count is the count accumulated over the 256 blocks in row-major order. -/
theorem cntSum_eq_acc : cntSum b y = accCnt b y 255 := by
  rw [acc_eq_sum (fun t => blkCnt b y (t / 16) (t % 16)) (accCnt b y) rfl (fun _ => rfl) 255]
  unfold cntSum
  rw [sum_pairs]
  show ∑ i : Fin 16, ∑ j : Fin 16, blkCnt b y i.val j.val = _
  rw [sum_blocks (fun i j => blkCnt b y i j)]
  refine Finset.sum_congr rfl fun t ht => ?_
  have ht' : t < 256 := Finset.mem_range.mp ht
  split
  · rfl
  · exact blkCnt_below b y _ _ (by omega) (by omega) (by omega)

end Cert.Spec

end
-- ==== Proof.KI.Final.lean ====
/-
  The value the program returns, at the ideal instance.

  Each accumulator window's one-element array is written back once, after the last grid point, with what the
  buffer then holds; the host operations after the region read the two elements as scalars and divide the
  first by the second. With the accumulators' values after the last point (the running sums over all 256
  points, which are the specification's two whole sums) the result is the specification's mean loss.
-/
import proofs.«112286_j20495583936604_1_alg».proof.Proof.KI.Body
import proofs.«112286_j20495583936604_1_alg».proof.Proof.KI.Value
import proofs.«112286_j20495583936604_1_alg».proof.Proof.SpecLaws
import Idealize.ShloMosaic.Lib.Pipeline.Value
import Idealize.ShloMosaic.Lib.StableHlo.Run
import Idealize.ShloMosaic.Lib.ValueLayout

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section AnyInstance

variable (m : (ℓ : Loc nD τ sig) → Buf (Elt F) ℓ) (ρ : Dev nD → PrngReg)

/-- A one-by-one array has one index. -/
instance : Subsingleton S1x1.Idx :=
  ⟨fun a b => funext fun d => match d with
    | ⟨0, _⟩ => Subsingleton.elim (α := Fin 1) _ _
    | ⟨1, _⟩ => Subsingleton.elim (α := Fin 1) _ _⟩

/-- The last grid point. -/
abbrev tLast : Fin cfg0.N := ⟨255, by rw [show cfg0.N = 256 from N_0]; decide⟩

theorem after6 (c : Dev nD) (t : Fin cfg0.N) : (dats m 0 c).after 6 t = (outsAt m c t.val t.isLt).1 := by dsimp only [dats]
theorem after7 (c : Dev nD) (t : Fin cfg0.N) : (dats m 0 c).after 7 t = (outsAt m c t.val t.isLt).2 := by dsimp only [dats]

/-- Only the last point writes the accumulator windows back. -/
theorem eq_last_of_flush6 (t : Fin cfg0.N) (h : (cfg0.win 6).flush t = true) : t = tLast := by
  have h1 := (flush0_6 t).mp h
  have h2 : t.val < 256 := lt_of_lt_of_eq t.isLt N_0
  exact Fin.ext (by show t.val = 255; omega)
theorem eq_last_of_flush7 (t : Fin cfg0.N) (h : (cfg0.win 7).flush t = true) : t = tLast := by
  have h1 := (flush0_7 t).mp h
  have h2 : t.val < 256 := lt_of_lt_of_eq t.isLt N_0
  exact Fin.ext (by show t.val = 255; omega)

/-- The loss array ends holding what its accumulator held after the last point. -/
theorem final6 (c : Dev nD) : (dats m 0 c).arrAt 6 cfg0.N = (outsAt m c 255 tLast.isLt).1 := by
  refine (dats m 0 c).arrAt_eq_of_cover 6 (outsAt m c 255 tLast.isLt).1 (fun t hf => ?_) (fun i => ⟨tLast, (flush0_6 _).mpr (by decide), ?_⟩)
  · obtain rfl := eq_last_of_flush6 t hf
    show (cfg0.win 6).cut (grid0.coords tLast) ((dats m 0 c).after 6 tLast) = _
    rw [after6]
    funext j
    exact congrArg (outsAt m c 255 tLast.isLt).1 (Subsingleton.elim (α := S1x1.Idx) _ _)
  · show i ∈ ((View.whole main_v6_0).slice (win0_6.rect tLast)).set
    rw [View.set_slice_whole, Rect.mem_set_unit]
    intro a
    match a with
    | ⟨0, _⟩ => exact ⟨Nat.zero_le _, (i 0).isLt⟩
    | ⟨1, _⟩ => exact ⟨Nat.zero_le _, (i 1).isLt⟩

/-- The count array ends holding what its accumulator held after the last point. -/
theorem final7 (c : Dev nD) : (dats m 0 c).arrAt 7 cfg0.N = (outsAt m c 255 tLast.isLt).2 := by
  refine (dats m 0 c).arrAt_eq_of_cover 7 (outsAt m c 255 tLast.isLt).2 (fun t hf => ?_) (fun i => ⟨tLast, (flush0_7 _).mpr (by decide), ?_⟩)
  · obtain rfl := eq_last_of_flush7 t hf
    show (cfg0.win 7).cut (grid0.coords tLast) ((dats m 0 c).after 7 tLast) = _
    rw [after7]
    funext j
    exact congrArg (outsAt m c 255 tLast.isLt).2 (Subsingleton.elim (α := S1x1.Idx) _ _)
  · show i ∈ ((View.whole main_v6_1).slice (win0_7.rect tLast)).set
    rw [View.set_slice_whole, Rect.mem_set_unit]
    intro a
    match a with
    | ⟨0, _⟩ => exact ⟨Nat.zero_le _, (i 0).isLt⟩
    | ⟨1, _⟩ => exact ⟨Nat.zero_le _, (i 1).isLt⟩

/-- The result buffer after the host operations that follow the region: the two one-element arrays read as
    scalars, the first divided by the second. -/
theorem tail_v9 (c : Dev nD) :
    Pipeline.afterTail₀ cfgs (dats m) 0 (V0 m) [hostOps1] c main_v9
      = Host.divf (shapeCast S_ ((dats m 0 c).arrAt 6 cfg0.N) shapeCasts_S1x1_S_) (shapeCast S_ ((dats m 0 c).arrAt 7 cfg0.N) shapeCasts_S1x1_S_) := by
  have e6 : Pipeline.withArrays spec0 c (V0 m c) (fun w => (dats m 0 c).arrAt w cfg0.N) (Proc.devRef .tc main_v6_0) = (dats m 0 c).arrAt 6 cfg0.N :=
    Pipeline.withArrays_arr spec0 launch0.win.arr_inj c (V0 m c) (fun w => (dats m 0 c).arrAt w cfg0.N) 6
  have e7 : Pipeline.withArrays spec0 c (V0 m c) (fun w => (dats m 0 c).arrAt w cfg0.N) (Proc.devRef .tc main_v6_1) = (dats m 0 c).arrAt 7 cfg0.N :=
    Pipeline.withArrays_arr spec0 launch0.win.arr_inj c (V0 m c) (fun w => (dats m 0 c).arrAt w cfg0.N) 7
  unfold Pipeline.afterTail₀
  show StableHlo.after hostOps1 _ (Proc.devRef .tc main_v9) = _
  after_results
  rw [← e6, ← e7]
  rfl

end AnyInstance

/-! ## At the ideal instance -/

section AtIdeal

open Cert.KernelIdeal.KValue

variable (m : (ℓ : Loc nD τ sig) → Buf (Elt Ideal) ℓ) (ρ : Dev nD → PrngReg)

/-- The result buffer holds the specification's mean loss of the argument arrays. -/
theorem v9_value (c : Dev nD) :
    Pipeline.afterTail₀ cfgs (dats (F := Ideal) m) 0 (V0 m) [hostOps1] c main_v9
      = fun _ => Cert.Spec.result (bOf m c) (yOf m c) (sOf m c) := by
  rw [tail_v9, final6, final7, outsAt_eq m c 255 tLast.isLt]
  unfold Cert.Spec.result
  rw [Cert.Spec.lossSum_eq_acc, Cert.Spec.cntSum_eq_acc]
  rfl

/-- The program at the ideal instance: it runs to the end, its result buffer holds the specification's mean loss and
    its three argument arrays are unchanged. -/
theorem run_value : θ_run defs (onTc (τ := τ) (main (F := Ideal))) ⟨m, fun _ => 0, ρ⟩ (fun r => ∀ c : Dev nD,
      r.2.mem ((c.tc : Thread nD τ).loc main_v9) = (fun _ => Cert.Spec.result (bOf m c) (yOf m c) (sOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v9 (Pipeline.mem_restRefs_of main_v9 (by decide) (by decide))).trans (v9_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end AtIdeal

end Cert.KernelIdeal.Body

end
-- ==== Proof.RefValue.lean ====
/-
  The reference's result, read index by index, is the specification's mean loss of the counted pairs.

  The reference builds an 8192 x 8192 mask whose entry (r, c) is the conjunction of three one-bit words
  (row position before column position, equal segment words, different label words), a matrix of pair
  losses, and divides the sum of the masked losses by the sum of the mask read as 0 / 1. Each entry is read
  at the pair of coordinates (r, c); the one-bit mask word is 1 exactly when the pair is counted, so the
  masked loss is the specification's loss term and the mask's number its count term. The two sums over the
  rank-2 index set are then the double sums over the coordinates.
-/
import proofs.«112286_j20495583936604_1_alg».proof.Proof.Gen.ReferenceIdeal.Read
import proofs.«112286_j20495583936604_1_alg».proof.Proof.Spec
import Idealize.ShloMosaic.Lib.ValueIdx
import Idealize.ShloMosaic.Lib.StableHlo.Predicate
import Idealize.ShloMosaic.PureOps.Ideal.Laws

noncomputable section

namespace Cert.ReferenceIdeal.RefValue

open Cert.ReferenceIdeal Idealize.ShloMosaic Idealize.ShloMosaic.ValueIdx

/-! ## One-bit words -/

/-- The conjunction of two one-bit words is 1 exactly when both are. -/
theorem andi_eq_one_iff (a b : BitVec 1) : IntOp.andi a b = 1#1 ↔ a = 1#1 ∧ b = 1#1 := by
  rcases BitVec.eq_zero_or_eq_one a with ha | ha <;> rcases BitVec.eq_zero_or_eq_one b with hb | hb <;>
    subst ha <;> subst hb <;> decide

/-- The "different words" compare is 1 exactly when the words differ. -/
theorem cmpi_ne_iff {w : Nat} (a b : BitVec w) : IntOp.cmpi .ne a b = 1#1 ↔ a ≠ b := by
  simp only [IntOp.cmpi, StableHlo.Predicate.ofBool_eq_one_iff, bne_iff_ne]

/-- The signed "less than" compare of the words of two positions below 8192 is the order of the positions. -/
theorem cmpi_slt_pos_iff (r c : ℕ) (hr : r < 8192) (hc : c < 8192) :
    IntOp.cmpi .slt (BitVec.ofNat 32 r) (BitVec.ofNat 32 c) = 1#1 ↔ r < c := by
  unfold IntOp.cmpi
  exact StableHlo.Predicate.slt_ofNat_iff r c (by omega) (by omega)

/-- The mask word of a pair: row position before column position, equal segments, different labels. -/
def maskW (r c : ℕ) (br bc yr yc : BitVec 32) : BitVec 1 :=
  IntOp.andi (IntOp.andi (IntOp.cmpi .slt (BitVec.ofNat 32 r) (BitVec.ofNat 32 c)) (IntOp.cmpi .eq br bc))
    (IntOp.cmpi .ne yr yc)

/-- The mask word is 1 exactly when the pair is counted. -/
theorem maskW_eq_one_iff (r c : ℕ) (hr : r < 8192) (hc : c < 8192) (br bc yr yc : BitVec 32) :
    maskW r c br bc yr yc = 1#1 ↔ Cert.Spec.Counted r c br bc yr yc := by
  unfold maskW Cert.Spec.Counted
  rw [andi_eq_one_iff, andi_eq_one_iff, cmpi_slt_pos_iff r c hr hc, StableHlo.Predicate.cmpi_eq_iff, cmpi_ne_iff,
    and_assoc]

/-- A one-bit word read as an unsigned number, at the ideal instance: 1 for the word 1, else 0. -/
theorem uitofp_bit (m : BitVec 1) :
    (FloatOps.uitofp (F := Ideal) .f32 m : EReal) = if m = 1#1 then 1 else 0 := by
  rcases BitVec.eq_zero_or_eq_one m with h | h <;> subst h
  · show (((0#1).toNat : ℝ) : EReal) = _
    rw [if_neg (by decide)]; simp
  · show (((1#1).toNat : ℝ) : EReal) = _
    rw [if_pos rfl]; simp

/-! ## One pair -/

/-- The masked loss of a pair is the specification's loss term. -/
theorem select_mask_loss (r c : ℕ) (hr : r < 8192) (hc : c < 8192) (br bc yr yc : BitVec 32) (sr sc : EReal) :
    Scalar.select (maskW r c br bc yr yc) (Cert.Spec.loss sr sc yr) 0
      = Cert.Spec.termLoss r c br bc yr yc sr sc := by
  unfold Cert.Spec.termLoss
  by_cases h : Cert.Spec.Counted r c br bc yr yc
  · rw [if_pos h, (maskW_eq_one_iff r c hr hc br bc yr yc).mpr h, select_one]
  · rw [if_neg h, eq_zero_of_ne_one (mt (maskW_eq_one_iff r c hr hc br bc yr yc).mp h), select_zero]

/-- The mask word of a pair read as a number is the specification's count term. -/
theorem uitofp_mask_cnt (r c : ℕ) (hr : r < 8192) (hc : c < 8192) (br bc yr yc : BitVec 32) :
    (FloatOps.uitofp (F := Ideal) .f32 (maskW r c br bc yr yc) : EReal) = Cert.Spec.termCnt r c br bc yr yc := by
  unfold Cert.Spec.termCnt
  rw [uitofp_bit]
  exact if_congr (maskW_eq_one_iff r c hr hc br bc yr yc) rfl rfl

/-- The reference's pair loss, operation by operation at the ideal instance, is the specification's. -/
theorem bce_eq_loss (sr sc : EReal) (yr : BitVec 32) :
    FloatOps.addf (F := Ideal) (φ := .f32)
        (FloatOps.subf (FloatOps.maximumf (FloatOps.subf sr sc) (FloatOps.ofBits .f32 0x00000000#32))
          (FloatOps.mulf (FloatOps.subf sr sc) (FloatOps.uitofp .f32 (IntOp.cmpi .eq yr 1#32))))
        (FloatOps.hostUnary .log1p (FloatOps.hostUnary .exp (FloatOps.hostNegf (FloatOps.hostAbsf (FloatOps.subf sr sc)))))
      = Cert.Spec.loss sr sc yr := by
  unfold Cert.Spec.loss
  rw [uitofp_bit]
  simp only [Ideal.addf_def, Ideal.subf_def, Ideal.mulf_def, Ideal.maximumf_def, Ideal.hostAbsf_def, Ideal.hostNegf_def,
    Ideal.negf_def, Ideal.absf_def, Ideal.hostUnary_exp_def, Ideal.hostUnary_log1p_def, Ideal.ofBits_def,
    Ideal.ofBits_zero_f32, StableHlo.Predicate.cmpi_eq_iff]

/-! ## The reference's stages at the pair of coordinates (r, c) -/

section Stages

variable (x0 : (⟨S8192, .i32⟩ : BufTy).Contents (Elt Ideal)) (x1 : (⟨S8192, .f32⟩ : BufTy).Contents (Elt Ideal))
  (x2 : (⟨S8192, .i32⟩ : BufTy).Contents (Elt Ideal))

/-- The mask at (r, c) is the mask word of the positions r, c and the segment and label words there. -/
theorem mask_at (r c : Fin 8192) :
    Read.val_main_v17 (F := Ideal) x0 x2 (ix2 r c)
      = maskW r.val c.val (x0 (ix1 r)) (x0 (ix1 c)) (x2 (ix1 r)) (x2 (ix1 c)) := by
  have e6 : Read.idx_main_v6 (Read.idx_main_v8 (ix2 r c)) = ix1 r :=
    funext fun a => by match a with | ⟨0, _⟩ => rfl
  have e7 : Read.idx_main_v7 (Read.idx_main_v9 (ix2 r c)) = ix1 c :=
    funext fun a => by match a with | ⟨0, _⟩ => rfl
  have e11 : Read.idx_main_v11 (Read.idx_main_v13 (ix2 r c)) = ix1 r :=
    funext fun a => by match a with | ⟨0, _⟩ => rfl
  have e12 : Read.idx_main_v12 (Read.idx_main_v14 (ix2 r c)) = ix1 c :=
    funext fun a => by match a with | ⟨0, _⟩ => rfl
  rw [Read.val_main_v17_apply, Read.val_main_v16_apply, Read.val_main_v5_apply,
    Read.val_main_v3_apply, Read.val_main_v1_apply, Read.val_main_v0_apply,
    Read.val_main_v4_apply, Read.val_main_v2_apply, Read.val_main_v0_apply,
    Read.val_main_v10_apply, Read.val_main_v8_apply, Read.val_main_v6_apply, Read.val_main_v9_apply,
    Read.val_main_v7_apply,
    Read.val_main_v15_apply, Read.val_main_v13_apply, Read.val_main_v11_apply, Read.val_main_v14_apply,
    Read.val_main_v12_apply, e6, e7, e11, e12]
  rfl

/-- The pair loss at (r, c) is the specification's loss of the scores at r, c and the label at r. -/
theorem bce_at (r c : Fin 8192) :
    Read.val_main_v36 (F := Ideal) x1 x2 (ix2 r c) = Cert.Spec.loss (x1 (ix1 r)) (x1 (ix1 c)) (x2 (ix1 r)) := by
  have e18 : Read.idx_main_v18 (Read.idx_main_v20 (ix2 r c)) = ix1 r :=
    funext fun a => by match a with | ⟨0, _⟩ => rfl
  have e19 : Read.idx_main_v19 (Read.idx_main_v21 (ix2 r c)) = ix1 c :=
    funext fun a => by match a with | ⟨0, _⟩ => rfl
  have e23 : Read.idx_main_v23 (Read.idx_main_v29 (ix2 r c)) = ix1 r :=
    funext fun a => by match a with | ⟨0, _⟩ => rfl
  rw [Read.val_main_v36_apply, Read.val_main_v31_apply, Read.val_main_v28_apply, Read.val_main_v30_apply,
    Read.val_main_v35_apply, Read.val_main_v34_apply, Read.val_main_v33_apply, Read.val_main_v32_apply,
    Read.val_main_v22_apply, Read.val_main_v20_apply, Read.val_main_v18_apply, Read.val_main_v21_apply,
    Read.val_main_v19_apply, Read.val_main_v27_apply, Read.val_main_cst_apply,
    Read.val_main_v29_apply, Read.val_main_v26_apply, Read.val_main_v25_apply, Read.val_main_v23_apply,
    Read.val_main_v24_apply, Read.val_main_c_apply, e18, e19, e23]
  exact bce_eq_loss _ _ _

/-- The masked loss at (r, c) is the specification's loss term of the pair. -/
theorem v39_at (r c : Fin 8192) :
    Read.val_main_v39 (F := Ideal) x0 x1 x2 (ix2 r c)
      = Cert.Spec.lossAt (fun r => x0 (ix1 r)) (fun r => x2 (ix1 r)) (fun r => x1 (ix1 r)) r c := by
  rw [Read.val_main_v39_apply, mask_at, bce_at, Read.val_main_call0_v1_apply, Read.val_main_call0_v0_apply,
    Read.val_main_cst_1_apply, Ideal.ofBits_def, Ideal.ofBits_zero_f32]
  exact select_mask_loss r.val c.val r.isLt c.isLt _ _ _ _ _ _

/-- The mask read as a number at (r, c) is the specification's count term of the pair. -/
theorem v37_at (r c : Fin 8192) :
    Read.val_main_v37 (F := Ideal) x0 x2 (ix2 r c)
      = Cert.Spec.cntAt (fun r => x0 (ix1 r)) (fun r => x2 (ix1 r)) r c := by
  rw [Read.val_main_v37_apply, mask_at]
  exact uitofp_mask_cnt r.val c.val r.isLt c.isLt _ _ _ _

end Stages

/-! ## The result -/

/-- The reference's scalar result is `Spec.result` of the three argument arrays read as functions of a position
    (`x0` the segment ids, `x1` the scores, `x2` the labels). -/
theorem result_eq (x0 : (⟨S8192, .i32⟩ : BufTy).Contents (Elt Ideal)) (x1 : (⟨S8192, .f32⟩ : BufTy).Contents (Elt Ideal))
    (x2 : (⟨S8192, .i32⟩ : BufTy).Contents (Elt Ideal)) :
    Read.val_main_v41 (F := Ideal) x0 x1 x2
      = fun _ => Cert.Spec.result (fun r => x0 (ix1 r)) (fun r => x2 (ix1 r)) (fun r => x1 (ix1 r)) := by
  funext i
  -- the two double sums over the coordinates are the specification's loss sum and count
  have hL : (∑ r : Fin 8192, ∑ c : Fin 8192, Read.val_main_v39 (F := Ideal) x0 x1 x2 (ix2 r c))
      = Cert.Spec.lossSum (fun r => x0 (ix1 r)) (fun r => x2 (ix1 r)) (fun r => x1 (ix1 r)) :=
    Finset.sum_congr rfl fun r _ => Finset.sum_congr rfl fun c _ => v39_at x0 x1 x2 r c
  have hC : (∑ r : Fin 8192, ∑ c : Fin 8192, Read.val_main_v37 (F := Ideal) x0 x2 (ix2 r c))
      = Cert.Spec.cntSum (fun r => x0 (ix1 r)) (fun r => x2 (ix1 r)) :=
    Finset.sum_congr rfl fun r _ => Finset.sum_congr rfl fun c _ => v37_at x0 x2 r c
  rw [Read.val_main_v41_apply, Read.val_main_v40_apply, Read.val_main_v38_apply, Read.val_main_cst_2_apply,
    Read.val_main_cst_0_apply, Ideal.ofBits_def, Ideal.ofBits_zero_f32, zero_add, zero_add, Ideal.hostDivf_def,
    sum_idx2, sum_idx2, hL, hC]
  rfl

end Cert.ReferenceIdeal.RefValue

end
-- ==== Proof.lean ====
/-
  The certificate of a pairwise logistic loss: a blocked kernel against a whole-array reference.

  Inputs: 8192 positions, each with a segment id, a score and a label. An ordered pair of positions is counted
  when the first comes before the second, both lie in one segment and their labels differ; its loss is the
  logistic loss of the difference of the two scores against the first position's label, in the stable form
  max(d, 0) - d z + log(1 + exp(-|d|)); the result is the sum of the counted pairs' losses divided by their
  number.

  The reference forms the whole 8192 x 8192 arrays of losses and of the mask, sums each and divides. The kernel
  visits the 16 x 16 blocks of 512 x 512 pairs in row-major order with two one-element accumulators: at the first
  block it zeroes them, at every block on or above the diagonal it adds the block's masked loss sum and its
  mask count, and it skips the blocks below the diagonal, in which no pair can be counted (every row there is at
  or after every column); after the last block the two accumulators are written out and divided.

  On the extended reals addition is commutative and associative, so the whole sums may be taken block by block in
  any order; the skipped blocks contribute zero; the reset contributes zero; and both programs end with the same
  quotient of the same two sums. No finiteness of the scores is needed for this: the precondition is not opened.

  The frames: the idealized and the word-level kernel run to the end with their arguments unchanged at any float
  instance (the body's run in each of its three cases; the accumulators carried from point to point, through
  the skipped points unchanged); the reference's frame is its run with the result dropped. The idealization
  rewrote nothing, so that conjunct is trivial.
-/
import proofs.«112286_j20495583936604_1_alg».proof.Defs
import proofs.«112286_j20495583936604_1_alg».proof.Proof.Gen.Kernel
import proofs.«112286_j20495583936604_1_alg».proof.Proof.Gen.KernelIdeal
import proofs.«112286_j20495583936604_1_alg».proof.Proof.Gen.ReferenceIdeal
import proofs.«112286_j20495583936604_1_alg».proof.Proof.Gen.Pre_finite_inputs
import proofs.«112286_j20495583936604_1_alg».proof.Proof.Gen.ReferenceIdeal.Run
import proofs.«112286_j20495583936604_1_alg».proof.Proof.KB.Body
import proofs.«112286_j20495583936604_1_alg».proof.Proof.KI.Final
import proofs.«112286_j20495583936604_1_alg».proof.Proof.RefValue

noncomputable section

namespace Cert.Proof

open Idealize.ShloMosaic Idealize.ShloMosaic.TcCoe Idealize.SL.Sem

/-- The word-level kernel runs to the end and leaves its arguments unchanged. -/
theorem frame_k : Cert.frame_Kernel := fun m ρ _ => Cert.Kernel.Body.frame (F := Bits) m ρ

/-- So does the idealized kernel. -/
theorem frame_ki : Cert.frame_KernelIdeal := fun m ρ _ => Cert.KernelIdeal.Body.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the specification's mean loss of the (agreeing) argument arrays. -/
theorem algebraic : Cert.algebraic_KernelIdeal_ReferenceIdeal := by
  intro m ρ m' ρ' _ hagree
  refine ⟨fun c => fun _ => Cert.Spec.result (Cert.KernelIdeal.KValue.bOf m c) (Cert.KernelIdeal.KValue.yOf m c) (Cert.KernelIdeal.KValue.sOf m c),
    Cert.KernelIdeal.Body.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.ReferenceIdeal.RefValue.result_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
